-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S512x256 : Shape := ⟨2, ![512, 256]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S1 : Shape := ⟨1, ![1]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .bf16⟩
  | .hbm, ⟨3, _⟩ => ⟨S8192x1, .i32⟩
  | .hbm, ⟨4, _⟩ => ⟨S1x8192, .i32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  bitsLt_bf16_f32 : FTy.bits .bf16 < FTy.bits .f32
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  dot_S512x256_S512x256_S512x512_1_1_0_0_n_n_wf : DotDims.WF S512x256 S512x256 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .bf16 = 32 ∨ (Rect.block (s := S8192x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .bf16 = 32 ∨ (Rect.block (s := S8192x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf

abbrev win0_0 : Pipeline.Window sig grid0 :=
  Pipeline.Window.ofSpec (Memref.whole main_v0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192 : Shape := ⟨1, ![8192]⟩
abbrev S8192x8192 : Shape := ⟨2, ![8192, 8192]⟩
abbrev S_ : Shape := ⟨0, ![]⟩
abbrev S8192x1 : Shape := ⟨2, ![8192, 1]⟩
abbrev S1x8192 : Shape := ⟨2, ![1, 8192]⟩

abbrev nBuf : Space → Nat
  | .hbm => 39
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x1, .i32⟩
  | .hbm, ⟨7, _⟩ => ⟨S1x8192, .i32⟩
  | .hbm, ⟨8, _⟩ => ⟨S8192x8192, .i32⟩
  | .hbm, ⟨9, _⟩ => ⟨S8192x8192, .i32⟩
  | .hbm, ⟨10, _⟩ => ⟨S8192x8192, .i1⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .i1⟩
  | .hbm, ⟨21, _⟩ => ⟨S8192x8192, .i1⟩
  | .hbm, ⟨22, _⟩ => ⟨S8192x8192, .i32⟩
  | .hbm, ⟨23, _⟩ => ⟨S_, .i32⟩
  | .hbm, ⟨24, _⟩ => ⟨S8192x8192, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .i1⟩
  | .hbm, ⟨29, _⟩ => ⟨S8192x8192, .i1⟩
  | .hbm, ⟨30, _⟩ => ⟨S8192x8192, .i1⟩
  | .hbm, ⟨31, _⟩ => ⟨S_, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_call0_cst : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_call2_v0 : Ref sig .tc := ⟨.hbm, 22, rfl⟩
abbrev main_call2_c : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_call2_c_0 : Ref sig .tc := ⟨.hbm, 28, rfl⟩
abbrev main_call2_v5 : Ref sig .tc := ⟨.hbm, 29, rfl⟩
abbrev main_v15 : Ref sig .tc := ⟨.hbm, 30, rfl⟩
abbrev main_cst_1 : Ref sig .tc := ⟨.hbm, 31, rfl⟩
abbrev main_call3_v0 : Ref sig .tc := ⟨.hbm, 32, rfl⟩
abbrev main_call3_v1 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S_d0_1 : S8192x8192.ReducesTo [0, 1] S_
  h_S_ : 0 < S_.numel
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.LibWholeStore.lean ====
import Idealize.ShloMosaic.Lib.Pipeline.FrameBody
import Idealize.ShloMosaic.Lib.Pipeline.Value

/-! A store through the rectangle that is the whole of a buffer's shape replaces the buffer's contents: what is read
back afterwards is the stored value, whatever the buffer held and whatever was stored before. -/

noncomputable section

namespace Idealize.ShloMosaic.WholeStore

open Idealize.ShloMosaic

variable {sig : RefSig} {κ : Kind} {sp : Space} {S : Shape} {e : EltTy} {Val : EltTy → Type} [∀ e, Nonempty (Val e)]

/-- The rectangle at offset zero of the shape's own size holds every index. -/
theorem mem_unit_zero {off : Fin S.rank → Nat} (h : off = fun _ => 0) (inb : ∀ a, off a + S.size a ≤ S.size a) (y : S.Idx) :
    y ∈ (Rect.unit off S.size inb).set := by
  subst h
  show y ∈ (Rect.whole S).set
  rw [Rect.set_whole]; exact Finset.mem_univ y

/-- After a last store of `w` through the whole shape, the buffer reads `w`. -/
theorem read_writes_cons (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, mem_unit_zero h inb y⟩), View.canon_cons_unit_zero h inb w L]

/-- A load through the whole shape after a last store of `w` through it reads `w`. -/
theorem readCov_cons (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, mem_unit_zero h inb y⟩), View.canon_cons_unit_zero h inb w L,
    View.ld_unit_zero h inb]

/-- A load through the whole shape of a buffer whose contents read `X` reads `X`. -/
theorem readAt_whole (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h inb]

end Idealize.ShloMosaic.WholeStore

end
-- ==== Proof.K.Body.lean ====
/-
  One grid point of the pair-loss kernel, as a triple over whole staging buffers.

  The kernel walks a 16 x 16 grid of 512 x 512 tiles of the B x B pair matrix. At a point it reads a block of 512 rows
  of the embeddings for the tile's rows, another for its columns, the rows' keys and the columns' keys, forms the tile's
  masked losses, sums them to one number, and adds that number to a 1 x 1 accumulator that lives in the output's
  staging buffer for the whole run. Only at the first point (both coordinates zero) is the accumulator first set to zero.

  `step` is that update as a pure function: the tile's total (the second reduction inside `k0_pay1`, of the row sums
  `k0_pay3`) added to the running total. The two triples below say that the body leaves the four input buffers as it
  found them and the accumulator at `step` of what it held — of zero at the first point.
-/
import proofs.«120967_j51591147159598_1_alg».proof.Proof.Gen.Kernel.Launch
import proofs.«120967_j51591147159598_1_alg».proof.Proof.Gen.Kernel.Skeleton
import proofs.«120967_j51591147159598_1_alg».proof.Proof.Gen.Kernel.Points
import proofs.«120967_j51591147159598_1_alg».proof.Proof.LibWholeStore
import Idealize.ShloMosaic.Lib.Pipeline.FrameBody
import Idealize.ShloMosaic.Lib.Tactic

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The accumulator is zeroed exactly where both grid coordinates are zero: the body's one branch condition. -/
abbrev atOrigin (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- Over the grid in point order that is the first point only. -/
theorem atOrigin_iff : ∀ t : Fin cfg0.N, atOrigin (grid0.coords t) ↔ t.val = 0 :=
  (by decide +kernel : ∀ t : Fin grid0.N, atOrigin (grid0.coords t) ↔ t.val = 0)

/-- One tile's total added to the running total `acc`: from the row block `x0`, the column block `x1`, the rows'
    keys `k0` and the columns' keys `k1` at grid position `i`. -/
def step (i : grid0.Coords) (x0 x1 : Vec F S512x256 .bf16) (k0 : Vec F S512x1 .i32) (k1 : Vec F S1x512 .i32) (acc : Vec F S1x1 .f32) : Vec F S1x1 .f32 :=
  k0_pay1 (k0_pay3 i x0 x1 k0 k1) acc

/-- The offset of every whole-buffer access of the body is zero on both axes. -/
theorem off00 : (![0, 0] : Fin 2 → Nat) = fun _ => 0 := funext fun a => by fin_cases a <;> rfl

set_option maxHeartbeats 1000000 in
/-- Away from the first point: the accumulator holds `acc` and ends at `step … acc`. -/
theorem run_later (c : Dev nD) (i : grid0.Coords)
    (a2 : Memref sig .tc .vmem S512x256 .bf16) (h2 : a2.IsWhole) (a3 : Memref sig .tc .vmem S512x256 .bf16) (h3 : a3.IsWhole)
    (a4 : Memref sig .tc .vmem S512x1 .i32) (h4 : a4.IsWhole) (a5 : Memref sig .tc .vmem S1x512 .i32) (h5 : a5.IsWhole)
    (a6 : Memref sig .tc .vmem S1x1 .f32) (h6 : a6.IsWhole) (hc : ¬ atOrigin i)
    (x0 x1 : Vec F S512x256 .bf16) (k0 : Vec F S512x1 .i32) (k1 : Vec F S1x512 .i32) (acc : Vec F S1x1 .f32)
    (E : Set ℕ) (K : PUnit → sProp 𝕄) :
    iprop(owns (c : Thread nD τ) a2 fullShare x0 ∗ owns (c : Thread nD τ) a3 fullShare x1 ∗ owns (c : Thread nD τ) a4 fullShare k0
        ∗ owns (c : Thread nD τ) a5 fullShare k1 ∗ owns (c : Thread nD τ) a6 fullShare acc
        ∗ (iprop(owns (c : Thread nD τ) a2 fullShare x0 ∗ owns (c : Thread nD τ) a3 fullShare x1 ∗ owns (c : Thread nD τ) a4 fullShare k0
            ∗ owns (c : Thread nD τ) a5 fullShare k1 ∗ owns (c : Thread nD τ) a6 fullShare (step i x0 x1 k0 k1 acc)) -∗ K ⟨⟩))
      ⊢ wp frame (wpE (defs₀ (F := F)) Variants.none c none) E (cc0__kernel i a2 h2 a3 h3 a4 h4 a5 h5 a6 h6) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := h2.eq_unread hf2; obtain rfl := h3.eq_unread hf3; obtain rfl := h4.eq_unread hf4; obtain rfl := h5.eq_unread hf5
  obtain rfl := h6.eq_unread hf6
  sl_exec (disch := first | exact hc)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  iexists _; isplitr
  swap; · iexact H6
  ipureintro
  rw [WholeStore.read_writes_cons _ _ off00]
  sl_unfold_words
  simp only [WholeStore.readAt_whole (S := S512x256) _ _ off00, WholeStore.readAt_whole (S := S512x1) _ _ off00,
    WholeStore.readAt_whole (S := S1x512) _ _ off00, WholeStore.readAt_whole (S := S1x1) _ _ off00, hf2, hf3, hf4, hf5, hf6]
  rfl

set_option maxHeartbeats 1000000 in
/-- At the first point: whatever the accumulator held, it ends at `step` of the zero block the body first stores. -/
theorem run_first (c : Dev nD) (i : grid0.Coords)
    (a2 : Memref sig .tc .vmem S512x256 .bf16) (h2 : a2.IsWhole) (a3 : Memref sig .tc .vmem S512x256 .bf16) (h3 : a3.IsWhole)
    (a4 : Memref sig .tc .vmem S512x1 .i32) (h4 : a4.IsWhole) (a5 : Memref sig .tc .vmem S1x512 .i32) (h5 : a5.IsWhole)
    (a6 : Memref sig .tc .vmem S1x1 .f32) (h6 : a6.IsWhole) (hc : atOrigin i)
    (x0 x1 : Vec F S512x256 .bf16) (k0 : Vec F S512x1 .i32) (k1 : Vec F S1x512 .i32) (d : Vec F S1x1 .f32)
    (E : Set ℕ) (K : PUnit → sProp 𝕄) :
    iprop(owns (c : Thread nD τ) a2 fullShare x0 ∗ owns (c : Thread nD τ) a3 fullShare x1 ∗ owns (c : Thread nD τ) a4 fullShare k0
        ∗ owns (c : Thread nD τ) a5 fullShare k1 ∗ owns (c : Thread nD τ) a6 fullShare d
        ∗ (iprop(owns (c : Thread nD τ) a2 fullShare x0 ∗ owns (c : Thread nD τ) a3 fullShare x1 ∗ owns (c : Thread nD τ) a4 fullShare k0
            ∗ owns (c : Thread nD τ) a5 fullShare k1 ∗ owns (c : Thread nD τ) a6 fullShare (step i x0 x1 k0 k1 (k0_pay2 (F := F)))) -∗ K ⟨⟩))
      ⊢ wp frame (wpE (defs₀ (F := F)) Variants.none c none) E (cc0__kernel i a2 h2 a3 h3 a4 h4 a5 h5 a6 h6) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := h2.eq_unread hf2; obtain rfl := h3.eq_unread hf3; obtain rfl := h4.eq_unread hf4; obtain rfl := h5.eq_unread hf5
  obtain rfl := h6.eq_unread hf6
  sl_exec (disch := first | exact hc)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  iexists _; isplitr
  swap; · iexact H6
  ipureintro
  rw [WholeStore.read_writes_cons _ _ off00]
  sl_unfold_words
  simp only [WholeStore.readAt_whole (S := S512x256) _ _ off00, WholeStore.readAt_whole (S := S512x1) _ _ off00,
    WholeStore.readAt_whole (S := S1x512) _ _ off00, WholeStore.readCov_cons (S := S1x1) _ off00, hf2, hf3, hf4, hf5]
  rfl

end Cert.Kernel.Acc

end
-- ==== Proof.K.Data.lean ====
/-
  The proof data of the pair-loss pipeline: what each staging buffer holds around each grid point.

  The region is entered after three host lines (the embeddings rounded to bf16, the keys laid out as a column and as a
  row); `V` is what the buffers hold then. The four input windows only ever hold blocks of those arrays: the row block
  and the column block of ONE array, the rounded embeddings, which two windows therefore share, each holding half of the
  array's share; the rows' keys; the columns' keys. The fifth window is the 1 x 1 output. Its block index never moves, so
  the pipeline writes it back once, after the last point, and between points its staging buffer carries the running
  total: `accAt n` is the total after point `n`, the tile totals added one by one (`step`) onto the zero block the
  first point stores.
-/
import proofs.«120967_j51591147159598_1_alg».proof.Proof.K.Body
import Idealize.ShloMosaic.Lib.Pipeline.FrameSuffix

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the three host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three lines, the region, and three more lines: it reduces to the region continued by the later lines,
    entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four input blocks of point `t` under the types the body's payloads take them at: 512 rows of embeddings for the
    tile's rows, 512 for its columns, the rows' keys as a column, the columns' keys as a row. -/
abbrev rowBlk (c : Dev nD) (t : Fin cfg0.N) : Vec F S512x256 .bf16 := iblk m c 0 t
abbrev colBlk (c : Dev nD) (t : Fin cfg0.N) : Vec F S512x256 .bf16 := iblk m c 1 t
abbrev rowKeys (c : Dev nD) (t : Fin cfg0.N) : Vec F S512x1 .i32 := iblk m c 2 t
abbrev colKeys (c : Dev nD) (t : Fin cfg0.N) : Vec F S1x512 .i32 := iblk m c 3 t

/-! ## The running total -/

/-- The accumulator after the body at position `n`: the first point adds its tile's total to the zero block it has just
    stored, every later point to what the point before left. -/
def accAt (c : Dev nD) : (n : ℕ) → n < cfg0.N → Vec F S1x1 .f32
  | 0, hn => step (grid0.coords ⟨0, hn⟩) (rowBlk m c ⟨0, hn⟩) (colBlk m c ⟨0, hn⟩) (rowKeys m c ⟨0, hn⟩) (colKeys m c ⟨0, hn⟩) (k0_pay2 (F := F))
  | n + 1, hn => step (grid0.coords ⟨n + 1, hn⟩) (rowBlk m c ⟨n + 1, hn⟩) (colBlk m c ⟨n + 1, hn⟩) (rowKeys m c ⟨n + 1, hn⟩) (colKeys m c ⟨n + 1, hn⟩)
      (accAt c n (Nat.lt_of_succ_lt hn))

theorem accAt_first (c : Dev nD) (t : Fin cfg0.N) (h0 : t.val = 0) :
    accAt m c t.val t.isLt = step (grid0.coords t) (rowBlk m c t) (colBlk m c t) (rowKeys m c t) (colKeys m c t) (k0_pay2 (F := F)) := by
  obtain ⟨n, hn⟩ := t
  cases n with
  | zero => rfl
  | succ n => exact absurd h0 (Nat.succ_ne_zero n)

theorem accAt_later (c : Dev nD) (t : Fin cfg0.N) (h0 : t.val ≠ 0) :
    accAt m c t.val t.isLt = step (grid0.coords t) (rowBlk m c t) (colBlk m c t) (rowKeys m c t) (colKeys m c t)
      (accAt m c (t.val - 1) (Nat.lt_of_le_of_lt (Nat.sub_le _ _) t.isLt)) := by
  obtain ⟨n, hn⟩ := t
  cases n with
  | zero => exact absurd rfl h0
  | succ n => rfl

/-! ## The proof data -/

/-- Per core: the arrays as the region finds them; after the body each input's buffer still at its block, the output's at
    the running total; the invariant only what the body never touches; nothing owed. The two windows on the rounded
    embeddings hold the two halves of that array's share, the keys' windows their arrays whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_cols (c : Dev nD) (t : Fin cfg0.N) : (dats m 0 c).after 1 t = iblk m c 1 t := by dsimp only [dats]
theorem after_rowKeys (c : Dev nD) (t : Fin cfg0.N) : (dats m 0 c).after 2 t = iblk m c 2 t := by dsimp only [dats]
theorem after_colKeys (c : Dev nD) (t : Fin cfg0.N) : (dats m 0 c).after 3 t = iblk m c 3 t := by dsimp only [dats]
theorem after_acc (c : Dev nD) (t : Fin cfg0.N) : (dats m 0 c).after 4 t = accAt m c t.val t.isLt := by dsimp only [dats]

/-! ## What the body finds -/

/-- An input's buffer holds its block at every point, refetched there or not: where it is not refetched its block index
    has not moved, and the body left the block in place. -/
theorem before_rows (c : Dev nD) (t : Fin cfg0.N) (d) : (dats m 0 c).before 0 t d = iblk m c 0 t :=
  ((dats m 0 c).before_in_eq_fetched 0 rfl (fun _ => rfl) (fun _ _ _ => rfl)
    (fun t => by rw [after_rows]; unfold Dat.blockOf iblk; rw [A_eq]; try rfl) t d).trans
    (by unfold Dat.fetched Dat.blockOf iblk; rw [A_eq]; try rfl)
theorem before_cols (c : Dev nD) (t : Fin cfg0.N) (d) : (dats m 0 c).before 1 t d = iblk m c 1 t :=
  ((dats m 0 c).before_in_eq_fetched 1 rfl (fun _ => rfl) (fun _ _ _ => rfl)
    (fun t => by rw [after_cols]; unfold Dat.blockOf iblk; rw [A_eq]; try rfl) t d).trans
    (by unfold Dat.fetched Dat.blockOf iblk; rw [A_eq]; try rfl)
theorem before_rowKeys (c : Dev nD) (t : Fin cfg0.N) (d) : (dats m 0 c).before 2 t d = iblk m c 2 t :=
  ((dats m 0 c).before_in_eq_fetched 2 rfl (fun _ => rfl) (fun _ _ _ => rfl)
    (fun t => by rw [after_rowKeys]; unfold Dat.blockOf iblk; rw [A_eq]; try rfl) t d).trans
    (by unfold Dat.fetched Dat.blockOf iblk; rw [A_eq]; try rfl)
theorem before_colKeys (c : Dev nD) (t : Fin cfg0.N) (d) : (dats m 0 c).before 3 t d = iblk m c 3 t :=
  ((dats m 0 c).before_in_eq_fetched 3 rfl (fun _ => rfl) (fun _ _ _ => rfl)
    (fun t => by rw [after_colKeys]; unfold Dat.blockOf iblk; rw [A_eq]; try rfl) t d).trans
    (by unfold Dat.fetched Dat.blockOf iblk; rw [A_eq]; try rfl)

/-- After the first point the accumulator's buffer holds what the point before left: it is written back only after the
    last point, so nothing touches it in between. -/
theorem before_acc (c : Dev nD) (t : Fin cfg0.N) (h0 : t.val ≠ 0) (d) :
    (dats m 0 c).before 4 t d = accAt m c (t.val - 1) (Nat.lt_of_le_of_lt (Nat.sub_le _ _) t.isLt) := by
  have hN : t.val < 256 := lt_of_lt_of_eq t.isLt (show cfg0.N = 256 from N_0)
  rw [Dat.before_out_kept _ 4 rfl t h0 (Bool.eq_false_iff.mpr fun h => by have := (flush0_4 _).mp h; dsimp only at this; omega)
    (fun _ => rfl) (fun _ _ => rfl)]
  dsimp only [dats]

end Cert.Kernel.Acc

end
-- ==== Proof.K.Obligation.lean ====
/-
  The pipeline's body obligation for the pair-loss kernel: at every grid point the body, started on the buffers as the
  pipeline hands them over, leaves them as the proof data says.

  By the proof data's lemmas the four input buffers hold the point's blocks and, after the first point, the output's
  buffer holds the running total so far. The first point is the one where both coordinates vanish: there the body's
  branch stores the zero block first and the triple `run_first` applies; everywhere else `run_later` does.
-/
import proofs.«120967_j51591147159598_1_alg».proof.Proof.K.Data

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, what the core owes, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1000000 in
/-- The body at any point. The invariant and what the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_cols, before_rowKeys, before_colKeys]
  rw [show (dats m 0 c).Φ t.succ = (dats m 0 c).Φ t.castSucc from rfl,
    show (dats m 0 c).owesAt () t.succ = (dats m 0 c).owesAt () t.castSucc from rfl,
    after_rows, after_cols, after_rowKeys, after_colKeys, after_acc]
  by_cases h0 : t.val = 0
  · rw [accAt_first m c t h0]
    iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ ((atOrigin_iff t).mpr h0) (rowBlk m c t) (colBlk m c t) (rowKeys m c t) (colKeys m c t)
      ((dats m 0 c).before 4 t d4) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [accAt_later m c t h0]
    simp only [before_acc m c t h0]
    iintro ⟨HΦ, Ho, ⟨%d0, H0⟩, ⟨%d1, H1⟩, ⟨%d2, H2⟩, ⟨%d3, H3⟩, ⟨%d4, H4⟩⟩
    iapply (run_later c (grid0.coords t) _ _ _ _ _ _ _ _ _ _ (fun h => h0 ((atOrigin_iff t).mp h)) (rowBlk m c t) (colBlk m c t) (rowKeys m c t) (colKeys m c t)
      (accAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Acc

end
-- ==== Proof.K.Shares.lean ====
/-
  How the buffers behind the pipeline's arrays are dealt among its windows.

  Four buffers stand behind the five windows: the rounded embeddings (read by the row window AND the column window), the
  keys as a column, the keys as a row, and the 1 x 1 result. Held whole at contents `W`, they are exactly the pipeline's
  `arrays` at `W`: the embeddings' full share splits into the left half for the row window and the right half for the
  column window, and joins again from them, both halves being at the same contents; the other three pass as they are.
-/
import proofs.«120967_j51591147159598_1_alg».proof.Proof.K.Data
import Idealize.ShloMosaic.Lib.Pipeline.Kit

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four buffers, each whole at the full share, one after the other. -/
theorem arrBufs_chain (c : Dev nD) (W : (b : Ref sig .tc) → Buf (Elt F) ((c.tc : Thread nD τ).loc b)) :
    (Pipeline.arrBufs spec0 c W : sProp 𝕄)
      = iprop((((c.tc : Thread nD τ).loc main_v0) ↦{fullShare} W main_v0) ∗ (((c.tc : Thread nD τ).loc main_v1) ↦{fullShare} W main_v1)
          ∗ (((c.tc : Thread nD τ).loc main_v2) ↦{fullShare} W main_v2) ∗ (((c.tc : Thread nD τ).loc main_v3) ↦{fullShare} W main_v3)) :=
  bigSep_eq_bigSepL_of_eq [main_v0, main_v1, main_v2, main_v3] (by decide) (by decide) _

/-- The five windows' arrays at the proof data's shares, one after the other. -/
theorem arrays_chain (c : Dev nD) (G : (w : Fin cfg0.W) → Buf (Elt F) ((cfg0.win w).arr.view.loc (c.tc : Thread nD τ))) :
    ((dats m 0 c).arrays G : sProp 𝕄)
      = iprop((((c.tc : Thread nD τ).loc main_v0) ↦{fullShare.left} G 0) ∗ (((c.tc : Thread nD τ).loc main_v0) ↦{fullShare.right} G 1)
          ∗ (((c.tc : Thread nD τ).loc main_v1) ↦{fullShare} G 2) ∗ (((c.tc : Thread nD τ).loc main_v2) ↦{fullShare} G 3)
          ∗ (((c.tc : Thread nD τ).loc main_v3) ↦{fullShare} G 4)) := by
  unfold Dat.arrays
  rw [bigSep_W0, (arr_whole0 0).set_eq_univ, (arr_whole0 2).set_eq_univ, (arr_whole0 3).set_eq_univ, (arr_whole0 4).set_eq_univ]
  rfl

/-- Whole buffers at `W` are the pipeline's arrays at `W`, and back. -/
theorem arrays_of_bufs (c : Dev nD) (W : (b : Ref sig .tc) → Buf (Elt F) ((c.tc : Thread nD τ).loc b)) :
    (Pipeline.arrBufs spec0 c W : sProp 𝕄) ⊢ (dats m 0 c).arrays (fun w => W (Pipeline.arrRef spec0 w)) := by
  rw [arrBufs_chain, arrays_chain]
  iintro ⟨H0, H1, H2, H3⟩
  ihave ⟨Ha, Hb⟩ := (pointsTo_share (PosShare.mem_left_op_right fullShare)).1 $$ H0
  isplitl [Ha]; · iexact Ha
  isplitl [Hb]; · iexact Hb
  isplitl [H1]; · iexact H1
  isplitl [H2]; · iexact H2
  iexact H3

theorem bufs_of_arrays (c : Dev nD) (W : (b : Ref sig .tc) → Buf (Elt F) ((c.tc : Thread nD τ).loc b)) :
    ((dats m 0 c).arrays (fun w => W (Pipeline.arrRef spec0 w)) : sProp 𝕄) ⊢ Pipeline.arrBufs spec0 c W := by
  rw [arrBufs_chain, arrays_chain]
  iintro ⟨Ha, Hb, H1, H2, H3⟩
  isplitl [Ha Hb]
  · iapply (pointsTo_share (PosShare.mem_left_op_right fullShare)).2
    isplitl [Ha]; · iexact Ha
    iexact Hb
  isplitl [H1]; · iexact H1
  isplitl [H2]; · iexact H2
  iexact H3

end Cert.Kernel.Acc

end
-- ==== Proof.K.Launch.lean ====
/-
  The run of the pair-loss program: the three host lines, the kernel region, the three host lines after it.

  The region is launched with the row window and the column window each holding half the share of the one array they
  read, so the launch is the library's general one-region theorem with the deal of the arrays stated here. When the
  region is left every buffer is as it was entered except the 1 x 1 result, which holds the last running total
  (`Wexit`). The two halves of the embeddings' share are then joined again, the three remaining host lines run on
  whole buffers (the result reshaped to a scalar, the constant, the quotient), and the final contents `Wfin` are read.
-/
import proofs.«120967_j51591147159598_1_alg».proof.Proof.K.Obligation
import proofs.«120967_j51591147159598_1_alg».proof.Proof.K.Shares
import Idealize.ShloMosaic.Lib.Pipeline.FrameSuffix

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the region's exit and at the end -/

open Classical in
/-- The buffers when the region is left: as it was entered, but the result at the last running total. -/
def Wexit (c : Dev nD) : Valuation τ sig (Elt F) :=
  Function.update (V0 m c) (Proc.devRef .tc main_v3) ((dats m 0 c).arrAt 4 cfg0.N)

/-- The buffers at the end of @main: after the three lines that follow the region. -/
def Wfin (c : Dev nD) (b : Ref sig .tc) : Buf (Elt F) ((c.tc : Thread nD τ).loc b) :=
  StableHlo.after hostOps1 (Wexit m c) (Proc.devRef .tc b)

theorem Wexit_result (c : Dev nD) : Wexit m c (Proc.devRef .tc main_v3) = (dats m 0 c).arrAt 4 cfg0.N := by
  unfold Wexit; exact Function.update_self ..

theorem Wexit_other (c : Dev nD) (b : Ref sig .tc) (h : b ≠ main_v3) : Wexit m c (Proc.devRef .tc b) = V m c b := by
  unfold Wexit; exact Function.update_of_ne (StableHlo.devRef_ne_of_ne h) ..

/-- Every array of the pipeline is, at the exit, what `Wexit` holds at its buffer: an input array is never written. -/
theorem arrAt_exit (c : Dev nD) : ∀ w : Fin cfg0.W, (dats m 0 c).arrAt w cfg0.N = Wexit m c (Proc.devRef .tc (Pipeline.arrRef spec0 w))
  | ⟨0, _⟩ => ((dats m 0 c).arrAt_in 0 rfl _).trans ((A_eq m c 0).trans (Wexit_other m c main_v0 (by decide)).symm)
  | ⟨1, _⟩ => ((dats m 0 c).arrAt_in 1 rfl _).trans ((A_eq m c 1).trans (Wexit_other m c main_v0 (by decide)).symm)
  | ⟨2, _⟩ => ((dats m 0 c).arrAt_in 2 rfl _).trans ((A_eq m c 2).trans (Wexit_other m c main_v1 (by decide)).symm)
  | ⟨3, _⟩ => ((dats m 0 c).arrAt_in 3 rfl _).trans ((A_eq m c 3).trans (Wexit_other m c main_v2 (by decide)).symm)
  | ⟨4, _⟩ => (Wexit_result m c).symm

/-- The lines after the region write the scalar, the constant and the quotient: no array of the pipeline. -/
theorem tail_keeps (b : Ref sig .tc) (h : b ≠ main_v4 ∧ b ≠ main_cst ∧ b ≠ main_v5) (W : Valuation τ sig (Elt F)) :
    StableHlo.after hostOps1 W (Proc.devRef .tc b) = W (Proc.devRef .tc b) :=
  StableHlo.after_of_writes_sub (W := [main_v4, main_cst, main_v5]) hostOps1 W
    (by simp only [hostOps1, List.Forall, StableHlo.reshape_writes, StableHlo.nullary_writes, StableHlo.binary_writes]
        refine ⟨?_, ?_, ?_⟩ <;> intro x hx <;> simp only [Finset.mem_singleton] at hx <;> subst hx <;> simp)
    (by simp only [List.mem_cons, List.mem_nil_iff, or_false, not_or]; exact h)

/-! ## All unscoped buffers, whole, against the arrays and the rest -/

/-- A core's unscoped buffers are the four behind the arrays and the rest. -/
theorem bufs_split (c : Dev nD) (W : (b : Ref sig .tc) → Buf (Elt F) ((c.tc : Thread nD τ).loc b)) :
    (unscopedBufs c W : sProp 𝕄) = iprop((Pipeline.arrBufs spec0 c W : sProp 𝕄) ∗ Pipeline.unscopedRest spec0 c W) :=
  Pipeline.unscopedBufs_split₀ cfgs (0 : Fin 1) winFacts₀0.arr_unscoped c W

/-- All unscoped buffers held at a valuation are the launch's unscoped buffers at it. -/
theorem held_eq (c : Dev nD) (W : Valuation τ sig (Elt F)) :
    (StableHlo.held (c.tc : Thread nD τ) (Pipeline.ucRefs τ sig) W : sProp 𝕄) = unscopedBufs c (fun b => W (Proc.devRef .tc b)) :=
  (Pipeline.unscopedBufs_held (Ix := Unit) (Name := ℕ) (U := UR sig nD τ) (Lvl := ℕ) c W).symm

/-- The arrays at `W` beside the other unscoped buffers at `W` are all unscoped buffers held at `W`, and back. -/
theorem held_of_arrays (c : Dev nD) (W : Valuation τ sig (Elt F)) :
    iprop((dats m 0 c).arrays (fun w => W (Proc.devRef .tc (Pipeline.arrRef spec0 w))) ∗ Pipeline.unscopedRest spec0 c (fun b => W (Proc.devRef .tc b)))
      ⊢ (StableHlo.held (c.tc : Thread nD τ) (Pipeline.ucRefs τ sig) W : sProp 𝕄) := by
  rw [held_eq, bufs_split]
  exact sep_mono (bufs_of_arrays m c (fun b => W (Proc.devRef .tc b))) .rfl

theorem arrays_of_held (c : Dev nD) (W : Valuation τ sig (Elt F)) :
    (StableHlo.held (c.tc : Thread nD τ) (Pipeline.ucRefs τ sig) W : sProp 𝕄)
      ⊢ iprop((dats m 0 c).arrays (fun w => W (Proc.devRef .tc (Pipeline.arrRef spec0 w))) ∗ Pipeline.unscopedRest spec0 c (fun b => W (Proc.devRef .tc b))) := by
  rw [held_eq, bufs_split]
  exact sep_mono (arrays_of_bufs m c (fun b => W (Proc.devRef .tc b))) .rfl

/-! ## The lines after the region -/

theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  subst hops
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- At the exit the arrays and the buffers that bypassed the region are all unscoped buffers held at `Wexit`. -/
theorem exit_held (c : Dev nD) :
    iprop((dats m 0 c).arrays ((dats m 0 c).arrAt · cfg0.N) ∗ Pipeline.unscopedRest spec0 c (V m c))
      ⊢ (StableHlo.held (c.tc : Thread nD τ) (Pipeline.ucRefs τ sig) (Wexit m c) : sProp 𝕄) := by
  have hA : ((dats m 0 c).arrAt · cfg0.N) = fun w => Wexit m c (Proc.devRef .tc (Pipeline.arrRef spec0 w)) := funext (arrAt_exit m c)
  have hZ : (Pipeline.unscopedRest spec0 c (V m c) : sProp 𝕄) = Pipeline.unscopedRest spec0 c (fun b => Wexit m c (Proc.devRef .tc b)) := by
    unfold Pipeline.unscopedRest
    exact bigSep_congr fun b hb => by
      dsimp only
      rw [Wexit_other m c b (fun e => (Finset.mem_sdiff.mp hb).2 (Finset.mem_image.mpr ⟨4, Finset.mem_univ _, by rw [e]⟩))]
  rw [hA, hZ]
  exact held_of_arrays m c (Wexit m c)

/-- No array of the pipeline is one of the three buffers the later lines write. -/
theorem arr_not_written : ∀ w : Fin 5, Pipeline.arrRef spec0 w ≠ main_v4 ∧ Pipeline.arrRef spec0 w ≠ main_cst ∧ Pipeline.arrRef spec0 w ≠ main_v5 := by
  decide

/-- After the lines, all unscoped buffers held are the arrays, still at their exit contents, and the rest at `Wfin`. -/
theorem held_end (c : Dev nD) :
    (StableHlo.held (c.tc : Thread nD τ) (Pipeline.ucRefs τ sig) (StableHlo.after hostOps1 (Wexit m c)) : sProp 𝕄)
      ⊢ iprop((dats m 0 c).arrays ((dats m 0 c).arrAt · cfg0.N) ∗ Pipeline.unscopedRest spec0 c (Wfin m c)) := by
  have hA : ((dats m 0 c).arrAt · cfg0.N) = fun w => StableHlo.after hostOps1 (Wexit m c) (Proc.devRef .tc (Pipeline.arrRef spec0 w)) :=
    funext fun w => (arrAt_exit m c w).trans (tail_keeps _ (arr_not_written w) _).symm
  rw [hA]
  exact arrays_of_held m c (StableHlo.after hostOps1 (Wexit m c))

set_option backward.isDefEq.respectTransparency.types false in
/-- The three lines after the region, from the region's exit: they run on whole buffers and hand back the arrays as the
    region left them and the other buffers at `Wfin`. -/
theorem tail_run (c : Dev nD) (Q' : PUnit → sProp 𝕄) :
    iprop((iprop((dats m 0 c).arrays ((dats m 0 c).arrAt · cfg0.N) ∗ Pipeline.unscopedRest spec0 c (Wfin m c)) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  iintro ⟨Hk, Hb, Haz⟩
  ihave Hh := (exit_held m c) $$ Haz
  rw [show ([StableHlo.seq hostOps1] : List (Prog (TpuEff nD τ sig (Elt F) (Pipeline.Sig Λ₀ (Fin 1) fun p => ((cfgs p).toPCfg (Val := Elt F)).Adm) .tc) PUnit))
      = ([hostOps1].map StableHlo.seq ++ []) from rfl]
  iapply (Pipeline.wp_seqs_then (fun q => (cfgs q).toPCfg (Val := Elt F)) defs₀ Variants.none c (Pipeline.ucRefs τ sig) [] [hostOps1] tail_sub tail_fresh (Wexit m c)) $$ [Hb Hh]
  · isplitl [Hb]; · iexact Hb
    iexact Hh
  iintro Hb
  rw [Pipeline.chain_nil, wp_pure]
  imodintro
  iapply Hk
  icases Hb with ⟨-, H⟩
  iapply (held_end m c)
  simp only [List.flatten_cons, List.flatten_nil, List.append_nil]
  iexact H

/-! ## The run -/

set_option backward.isDefEq.respectTransparency.types false in
/-- Every weakly fair execution of @main terminates, and in every final state the result, and the two arguments, hold
    what `Wfin` says. -/
theorem run_main : θ_run (defs (F := F)) (onTc (τ := τ) (main (F := F))) ⟨m, fun _ => 0, ρ⟩ (fun r => ∀ c : Dev nD,
      r.2.mem ((c.tc : Thread nD τ).loc main_v5) = Wfin m c main_v5
      ∧ r.2.mem ((c.tc : Thread nD τ).loc main_arg0) = Wfin m c main_arg0
      ∧ r.2.mem ((c.tc : Thread nD τ).loc main_arg1) = Wfin m c main_arg1) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m c (V m c))
    (hpf := fun _ k => k.elim0)
    (X := fun c => iprop(∃ r, prngReg c r)) (Y := fun c => iprop(∃ r, prngReg c r))
    (Z := fun c => Pipeline.unscopedRest spec0 c (V m c))
    (Z' := fun c => Pipeline.unscopedRest spec0 c (Wfin m c))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr]; · iexact Hr
      iexact Hp)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := tail_run m)
    (QY := fun c s => ∀ b ∈ Pipeline.restRefs sig spec0, s.mem ((c.tc : Thread nD τ).loc b) = Wfin m c b)
    (hY := fun c s' => by
      iintro ⟨-, HU, HSI⟩
      unfold Pipeline.unscopedRest
      imodintro
      iapply (pointsTo_read_all (Pipeline.restRefs sig spec0) (fun b => (c.tc : Thread nD τ).loc b) (Wfin m c) s')
      isplitl [HU] <;> iassumption)
    (hQ := fun s h c => ⟨(h c).2.2 main_v5 (by decide), (h c).2.2 main_arg0 (by decide), (h c).2.2 main_arg1 (by decide)⟩)

end Cert.Kernel.Acc

end
-- ==== Proof.K.Frame.lean ====
/-
  The frame claim of the pair-loss program: it runs to the end without a fault and leaves its two arguments as they were.

  Neither stretch of host lines writes an argument (the first writes the rounded embeddings and the two key layouts, the
  second the scalar, the constant and the quotient), and the region writes only the 1 x 1 result. So what the run
  finds in the arguments at the end is what the launch put there.
-/
import proofs.«120967_j51591147159598_1_alg».proof.Proof.K.Launch

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The lines before the region write three buffers, none of them an argument. -/
theorem head_keeps (c : Dev nD) (b : Ref sig .tc) (h : b ≠ main_v0 ∧ b ≠ main_v1 ∧ b ≠ main_v2) :
    V m c b = m ((c.tc : Thread nD τ).loc b) :=
  StableHlo.after_of_writes_sub (W := [main_v0, main_v1, main_v2]) (List.flatten [hostOps0]) (fun b => m (c, b))
    (by simp only [hostOps0, List.flatten_cons, List.flatten_nil, List.append_nil, List.Forall, StableHlo.reshape_writes, StableHlo.unary_writes]
        refine ⟨?_, ?_, ?_⟩ <;> intro x hx <;> simp only [Finset.mem_singleton] at hx <;> subst hx <;> simp)
    (by simp only [List.mem_cons, List.mem_nil_iff, or_false, not_or]; exact h)

/-- An argument ends as launched. -/
theorem Wfin_arg (c : Dev nD) (b : Ref sig .tc) (h1 : b ≠ main_v0 ∧ b ≠ main_v1 ∧ b ≠ main_v2) (h2 : b ≠ main_v3)
    (h3 : b ≠ main_v4 ∧ b ≠ main_cst ∧ b ≠ main_v5) : Wfin m c b = m ((c.tc : Thread nD τ).loc b) := by
  unfold Wfin
  rw [tail_keeps b h3, Wexit_other m c b h2]
  exact head_keeps m c b h1

/-- The frame: every weakly fair execution terminates, nothing faults, the arguments end unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun _ h c =>
    ⟨(h c).2.1.trans (Wfin_arg m c main_arg0 (by decide) (by decide) (by decide)),
     (h c).2.2.trans (Wfin_arg m c main_arg1 (by decide) (by decide) (by decide))⟩) (run_main m ρ)

end Cert.Kernel.Acc

end
-- ==== Proof.KI.Body.lean ====
/-
  One grid point of the pair-loss kernel, as a triple over whole staging buffers.

  The kernel walks a 16 x 16 grid of 512 x 512 tiles of the B x B pair matrix. At a point it reads a block of 512 rows
  of the embeddings for the tile's rows, another for its columns, the rows' keys and the columns' keys, forms the tile's
  masked losses, sums them to one number, and adds that number to a 1 x 1 accumulator that lives in the output's
  staging buffer for the whole run. Only at the first point (both coordinates zero) is the accumulator first set to zero.

  `step` is that update as a pure function: the tile's total (the second reduction inside `k0_pay1`, of the row sums
  `k0_pay3`) added to the running total. The two triples below say that the body leaves the four input buffers as it
  found them and the accumulator at `step` of what it held — of zero at the first point.
-/
import proofs.«120967_j51591147159598_1_alg».proof.Proof.Gen.KernelIdeal.Launch
import proofs.«120967_j51591147159598_1_alg».proof.Proof.Gen.KernelIdeal.Skeleton
import proofs.«120967_j51591147159598_1_alg».proof.Proof.Gen.KernelIdeal.Points
import proofs.«120967_j51591147159598_1_alg».proof.Proof.LibWholeStore
import Idealize.ShloMosaic.Lib.Pipeline.FrameBody
import Idealize.ShloMosaic.Lib.Tactic

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The accumulator is zeroed exactly where both grid coordinates are zero: the body's one branch condition. -/
abbrev atOrigin (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- Over the grid in point order that is the first point only. -/
theorem atOrigin_iff : ∀ t : Fin cfg0.N, atOrigin (grid0.coords t) ↔ t.val = 0 :=
  (by decide +kernel : ∀ t : Fin grid0.N, atOrigin (grid0.coords t) ↔ t.val = 0)

/-- One tile's total added to the running total `acc`: from the row block `x0`, the column block `x1`, the rows'
    keys `k0` and the columns' keys `k1` at grid position `i`. -/
def step (i : grid0.Coords) (x0 x1 : Vec F S512x256 .bf16) (k0 : Vec F S512x1 .i32) (k1 : Vec F S1x512 .i32) (acc : Vec F S1x1 .f32) : Vec F S1x1 .f32 :=
  k0_pay1 (k0_pay3 i x0 x1 k0 k1) acc

/-- The offset of every whole-buffer access of the body is zero on both axes. -/
theorem off00 : (![0, 0] : Fin 2 → Nat) = fun _ => 0 := funext fun a => by fin_cases a <;> rfl

set_option maxHeartbeats 1000000 in
/-- Away from the first point: the accumulator holds `acc` and ends at `step … acc`. -/
theorem run_later (c : Dev nD) (i : grid0.Coords)
    (a2 : Memref sig .tc .vmem S512x256 .bf16) (h2 : a2.IsWhole) (a3 : Memref sig .tc .vmem S512x256 .bf16) (h3 : a3.IsWhole)
    (a4 : Memref sig .tc .vmem S512x1 .i32) (h4 : a4.IsWhole) (a5 : Memref sig .tc .vmem S1x512 .i32) (h5 : a5.IsWhole)
    (a6 : Memref sig .tc .vmem S1x1 .f32) (h6 : a6.IsWhole) (hc : ¬ atOrigin i)
    (x0 x1 : Vec F S512x256 .bf16) (k0 : Vec F S512x1 .i32) (k1 : Vec F S1x512 .i32) (acc : Vec F S1x1 .f32)
    (E : Set ℕ) (K : PUnit → sProp 𝕄) :
    iprop(owns (c : Thread nD τ) a2 fullShare x0 ∗ owns (c : Thread nD τ) a3 fullShare x1 ∗ owns (c : Thread nD τ) a4 fullShare k0
        ∗ owns (c : Thread nD τ) a5 fullShare k1 ∗ owns (c : Thread nD τ) a6 fullShare acc
        ∗ (iprop(owns (c : Thread nD τ) a2 fullShare x0 ∗ owns (c : Thread nD τ) a3 fullShare x1 ∗ owns (c : Thread nD τ) a4 fullShare k0
            ∗ owns (c : Thread nD τ) a5 fullShare k1 ∗ owns (c : Thread nD τ) a6 fullShare (step i x0 x1 k0 k1 acc)) -∗ K ⟨⟩))
      ⊢ wp frame (wpE (defs₀ (F := F)) Variants.none c none) E (cc0__kernel i a2 h2 a3 h3 a4 h4 a5 h5 a6 h6) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := h2.eq_unread hf2; obtain rfl := h3.eq_unread hf3; obtain rfl := h4.eq_unread hf4; obtain rfl := h5.eq_unread hf5
  obtain rfl := h6.eq_unread hf6
  sl_exec (disch := first | exact hc)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  iexists _; isplitr
  swap; · iexact H6
  ipureintro
  rw [WholeStore.read_writes_cons _ _ off00]
  sl_unfold_words
  simp only [WholeStore.readAt_whole (S := S512x256) _ _ off00, WholeStore.readAt_whole (S := S512x1) _ _ off00,
    WholeStore.readAt_whole (S := S1x512) _ _ off00, WholeStore.readAt_whole (S := S1x1) _ _ off00, hf2, hf3, hf4, hf5, hf6]
  rfl

set_option maxHeartbeats 1000000 in
/-- At the first point: whatever the accumulator held, it ends at `step` of the zero block the body first stores. -/
theorem run_first (c : Dev nD) (i : grid0.Coords)
    (a2 : Memref sig .tc .vmem S512x256 .bf16) (h2 : a2.IsWhole) (a3 : Memref sig .tc .vmem S512x256 .bf16) (h3 : a3.IsWhole)
    (a4 : Memref sig .tc .vmem S512x1 .i32) (h4 : a4.IsWhole) (a5 : Memref sig .tc .vmem S1x512 .i32) (h5 : a5.IsWhole)
    (a6 : Memref sig .tc .vmem S1x1 .f32) (h6 : a6.IsWhole) (hc : atOrigin i)
    (x0 x1 : Vec F S512x256 .bf16) (k0 : Vec F S512x1 .i32) (k1 : Vec F S1x512 .i32) (d : Vec F S1x1 .f32)
    (E : Set ℕ) (K : PUnit → sProp 𝕄) :
    iprop(owns (c : Thread nD τ) a2 fullShare x0 ∗ owns (c : Thread nD τ) a3 fullShare x1 ∗ owns (c : Thread nD τ) a4 fullShare k0
        ∗ owns (c : Thread nD τ) a5 fullShare k1 ∗ owns (c : Thread nD τ) a6 fullShare d
        ∗ (iprop(owns (c : Thread nD τ) a2 fullShare x0 ∗ owns (c : Thread nD τ) a3 fullShare x1 ∗ owns (c : Thread nD τ) a4 fullShare k0
            ∗ owns (c : Thread nD τ) a5 fullShare k1 ∗ owns (c : Thread nD τ) a6 fullShare (step i x0 x1 k0 k1 (k0_pay2 (F := F)))) -∗ K ⟨⟩))
      ⊢ wp frame (wpE (defs₀ (F := F)) Variants.none c none) E (cc0__kernel i a2 h2 a3 h3 a4 h4 a5 h5 a6 h6) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := h2.eq_unread hf2; obtain rfl := h3.eq_unread hf3; obtain rfl := h4.eq_unread hf4; obtain rfl := h5.eq_unread hf5
  obtain rfl := h6.eq_unread hf6
  sl_exec (disch := first | exact hc)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  iexists _; isplitr
  swap; · iexact H6
  ipureintro
  rw [WholeStore.read_writes_cons _ _ off00]
  sl_unfold_words
  simp only [WholeStore.readAt_whole (S := S512x256) _ _ off00, WholeStore.readAt_whole (S := S512x1) _ _ off00,
    WholeStore.readAt_whole (S := S1x512) _ _ off00, WholeStore.readCov_cons (S := S1x1) _ off00, hf2, hf3, hf4, hf5]
  rfl

end Cert.KernelIdeal.Acc

end
-- ==== Proof.KI.Data.lean ====
/-
  The proof data of the pair-loss pipeline: what each staging buffer holds around each grid point.

  The region is entered after three host lines (the embeddings rounded to bf16, the keys laid out as a column and as a
  row); `V` is what the buffers hold then. The four input windows only ever hold blocks of those arrays: the row block
  and the column block of ONE array, the rounded embeddings, which two windows therefore share, each holding half of the
  array's share; the rows' keys; the columns' keys. The fifth window is the 1 x 1 output. Its block index never moves, so
  the pipeline writes it back once, after the last point, and between points its staging buffer carries the running
  total: `accAt n` is the total after point `n`, the tile totals added one by one (`step`) onto the zero block the
  first point stores.
-/
import proofs.«120967_j51591147159598_1_alg».proof.Proof.KI.Body
import Idealize.ShloMosaic.Lib.Pipeline.FrameSuffix

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the three host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three lines, the region, and three more lines: it reduces to the region continued by the later lines,
    entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four input blocks of point `t` under the types the body's payloads take them at: 512 rows of embeddings for the
    tile's rows, 512 for its columns, the rows' keys as a column, the columns' keys as a row. -/
abbrev rowBlk (c : Dev nD) (t : Fin cfg0.N) : Vec F S512x256 .bf16 := iblk m c 0 t
abbrev colBlk (c : Dev nD) (t : Fin cfg0.N) : Vec F S512x256 .bf16 := iblk m c 1 t
abbrev rowKeys (c : Dev nD) (t : Fin cfg0.N) : Vec F S512x1 .i32 := iblk m c 2 t
abbrev colKeys (c : Dev nD) (t : Fin cfg0.N) : Vec F S1x512 .i32 := iblk m c 3 t

/-! ## The running total -/

/-- The accumulator after the body at position `n`: the first point adds its tile's total to the zero block it has just
    stored, every later point to what the point before left. -/
def accAt (c : Dev nD) : (n : ℕ) → n < cfg0.N → Vec F S1x1 .f32
  | 0, hn => step (grid0.coords ⟨0, hn⟩) (rowBlk m c ⟨0, hn⟩) (colBlk m c ⟨0, hn⟩) (rowKeys m c ⟨0, hn⟩) (colKeys m c ⟨0, hn⟩) (k0_pay2 (F := F))
  | n + 1, hn => step (grid0.coords ⟨n + 1, hn⟩) (rowBlk m c ⟨n + 1, hn⟩) (colBlk m c ⟨n + 1, hn⟩) (rowKeys m c ⟨n + 1, hn⟩) (colKeys m c ⟨n + 1, hn⟩)
      (accAt c n (Nat.lt_of_succ_lt hn))

theorem accAt_first (c : Dev nD) (t : Fin cfg0.N) (h0 : t.val = 0) :
    accAt m c t.val t.isLt = step (grid0.coords t) (rowBlk m c t) (colBlk m c t) (rowKeys m c t) (colKeys m c t) (k0_pay2 (F := F)) := by
  obtain ⟨n, hn⟩ := t
  cases n with
  | zero => rfl
  | succ n => exact absurd h0 (Nat.succ_ne_zero n)

theorem accAt_later (c : Dev nD) (t : Fin cfg0.N) (h0 : t.val ≠ 0) :
    accAt m c t.val t.isLt = step (grid0.coords t) (rowBlk m c t) (colBlk m c t) (rowKeys m c t) (colKeys m c t)
      (accAt m c (t.val - 1) (Nat.lt_of_le_of_lt (Nat.sub_le _ _) t.isLt)) := by
  obtain ⟨n, hn⟩ := t
  cases n with
  | zero => exact absurd rfl h0
  | succ n => rfl

/-! ## The proof data -/

/-- Per core: the arrays as the region finds them; after the body each input's buffer still at its block, the output's at
    the running total; the invariant only what the body never touches; nothing owed. The two windows on the rounded
    embeddings hold the two halves of that array's share, the keys' windows their arrays whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_cols (c : Dev nD) (t : Fin cfg0.N) : (dats m 0 c).after 1 t = iblk m c 1 t := by dsimp only [dats]
theorem after_rowKeys (c : Dev nD) (t : Fin cfg0.N) : (dats m 0 c).after 2 t = iblk m c 2 t := by dsimp only [dats]
theorem after_colKeys (c : Dev nD) (t : Fin cfg0.N) : (dats m 0 c).after 3 t = iblk m c 3 t := by dsimp only [dats]
theorem after_acc (c : Dev nD) (t : Fin cfg0.N) : (dats m 0 c).after 4 t = accAt m c t.val t.isLt := by dsimp only [dats]

/-! ## What the body finds -/

/-- An input's buffer holds its block at every point, refetched there or not: where it is not refetched its block index
    has not moved, and the body left the block in place. -/
theorem before_rows (c : Dev nD) (t : Fin cfg0.N) (d) : (dats m 0 c).before 0 t d = iblk m c 0 t :=
  ((dats m 0 c).before_in_eq_fetched 0 rfl (fun _ => rfl) (fun _ _ _ => rfl)
    (fun t => by rw [after_rows]; unfold Dat.blockOf iblk; rw [A_eq]; try rfl) t d).trans
    (by unfold Dat.fetched Dat.blockOf iblk; rw [A_eq]; try rfl)
theorem before_cols (c : Dev nD) (t : Fin cfg0.N) (d) : (dats m 0 c).before 1 t d = iblk m c 1 t :=
  ((dats m 0 c).before_in_eq_fetched 1 rfl (fun _ => rfl) (fun _ _ _ => rfl)
    (fun t => by rw [after_cols]; unfold Dat.blockOf iblk; rw [A_eq]; try rfl) t d).trans
    (by unfold Dat.fetched Dat.blockOf iblk; rw [A_eq]; try rfl)
theorem before_rowKeys (c : Dev nD) (t : Fin cfg0.N) (d) : (dats m 0 c).before 2 t d = iblk m c 2 t :=
  ((dats m 0 c).before_in_eq_fetched 2 rfl (fun _ => rfl) (fun _ _ _ => rfl)
    (fun t => by rw [after_rowKeys]; unfold Dat.blockOf iblk; rw [A_eq]; try rfl) t d).trans
    (by unfold Dat.fetched Dat.blockOf iblk; rw [A_eq]; try rfl)
theorem before_colKeys (c : Dev nD) (t : Fin cfg0.N) (d) : (dats m 0 c).before 3 t d = iblk m c 3 t :=
  ((dats m 0 c).before_in_eq_fetched 3 rfl (fun _ => rfl) (fun _ _ _ => rfl)
    (fun t => by rw [after_colKeys]; unfold Dat.blockOf iblk; rw [A_eq]; try rfl) t d).trans
    (by unfold Dat.fetched Dat.blockOf iblk; rw [A_eq]; try rfl)

/-- After the first point the accumulator's buffer holds what the point before left: it is written back only after the
    last point, so nothing touches it in between. -/
theorem before_acc (c : Dev nD) (t : Fin cfg0.N) (h0 : t.val ≠ 0) (d) :
    (dats m 0 c).before 4 t d = accAt m c (t.val - 1) (Nat.lt_of_le_of_lt (Nat.sub_le _ _) t.isLt) := by
  have hN : t.val < 256 := lt_of_lt_of_eq t.isLt (show cfg0.N = 256 from N_0)
  rw [Dat.before_out_kept _ 4 rfl t h0 (Bool.eq_false_iff.mpr fun h => by have := (flush0_4 _).mp h; dsimp only at this; omega)
    (fun _ => rfl) (fun _ _ => rfl)]
  dsimp only [dats]

end Cert.KernelIdeal.Acc

end
-- ==== Proof.KI.Obligation.lean ====
/-
  The pipeline's body obligation for the pair-loss kernel: at every grid point the body, started on the buffers as the
  pipeline hands them over, leaves them as the proof data says.

  By the proof data's lemmas the four input buffers hold the point's blocks and, after the first point, the output's
  buffer holds the running total so far. The first point is the one where both coordinates vanish: there the body's
  branch stores the zero block first and the triple `run_first` applies; everywhere else `run_later` does.
-/
import proofs.«120967_j51591147159598_1_alg».proof.Proof.KI.Data

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, what the core owes, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1000000 in
/-- The body at any point. The invariant and what the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_cols, before_rowKeys, before_colKeys]
  rw [show (dats m 0 c).Φ t.succ = (dats m 0 c).Φ t.castSucc from rfl,
    show (dats m 0 c).owesAt () t.succ = (dats m 0 c).owesAt () t.castSucc from rfl,
    after_rows, after_cols, after_rowKeys, after_colKeys, after_acc]
  by_cases h0 : t.val = 0
  · rw [accAt_first m c t h0]
    iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ ((atOrigin_iff t).mpr h0) (rowBlk m c t) (colBlk m c t) (rowKeys m c t) (colKeys m c t)
      ((dats m 0 c).before 4 t d4) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [accAt_later m c t h0]
    simp only [before_acc m c t h0]
    iintro ⟨HΦ, Ho, ⟨%d0, H0⟩, ⟨%d1, H1⟩, ⟨%d2, H2⟩, ⟨%d3, H3⟩, ⟨%d4, H4⟩⟩
    iapply (run_later c (grid0.coords t) _ _ _ _ _ _ _ _ _ _ (fun h => h0 ((atOrigin_iff t).mp h)) (rowBlk m c t) (colBlk m c t) (rowKeys m c t) (colKeys m c t)
      (accAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Acc

end
-- ==== Proof.KI.Shares.lean ====
/-
  How the buffers behind the pipeline's arrays are dealt among its windows.

  Four buffers stand behind the five windows: the rounded embeddings (read by the row window AND the column window), the
  keys as a column, the keys as a row, and the 1 x 1 result. Held whole at contents `W`, they are exactly the pipeline's
  `arrays` at `W`: the embeddings' full share splits into the left half for the row window and the right half for the
  column window, and joins again from them, both halves being at the same contents; the other three pass as they are.
-/
import proofs.«120967_j51591147159598_1_alg».proof.Proof.KI.Data
import Idealize.ShloMosaic.Lib.Pipeline.Kit

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four buffers, each whole at the full share, one after the other. -/
theorem arrBufs_chain (c : Dev nD) (W : (b : Ref sig .tc) → Buf (Elt F) ((c.tc : Thread nD τ).loc b)) :
    (Pipeline.arrBufs spec0 c W : sProp 𝕄)
      = iprop((((c.tc : Thread nD τ).loc main_v0) ↦{fullShare} W main_v0) ∗ (((c.tc : Thread nD τ).loc main_v1) ↦{fullShare} W main_v1)
          ∗ (((c.tc : Thread nD τ).loc main_v2) ↦{fullShare} W main_v2) ∗ (((c.tc : Thread nD τ).loc main_v3) ↦{fullShare} W main_v3)) :=
  bigSep_eq_bigSepL_of_eq [main_v0, main_v1, main_v2, main_v3] (by decide) (by decide) _

/-- The five windows' arrays at the proof data's shares, one after the other. -/
theorem arrays_chain (c : Dev nD) (G : (w : Fin cfg0.W) → Buf (Elt F) ((cfg0.win w).arr.view.loc (c.tc : Thread nD τ))) :
    ((dats m 0 c).arrays G : sProp 𝕄)
      = iprop((((c.tc : Thread nD τ).loc main_v0) ↦{fullShare.left} G 0) ∗ (((c.tc : Thread nD τ).loc main_v0) ↦{fullShare.right} G 1)
          ∗ (((c.tc : Thread nD τ).loc main_v1) ↦{fullShare} G 2) ∗ (((c.tc : Thread nD τ).loc main_v2) ↦{fullShare} G 3)
          ∗ (((c.tc : Thread nD τ).loc main_v3) ↦{fullShare} G 4)) := by
  unfold Dat.arrays
  rw [bigSep_W0, (arr_whole0 0).set_eq_univ, (arr_whole0 2).set_eq_univ, (arr_whole0 3).set_eq_univ, (arr_whole0 4).set_eq_univ]
  rfl

/-- Whole buffers at `W` are the pipeline's arrays at `W`, and back. -/
theorem arrays_of_bufs (c : Dev nD) (W : (b : Ref sig .tc) → Buf (Elt F) ((c.tc : Thread nD τ).loc b)) :
    (Pipeline.arrBufs spec0 c W : sProp 𝕄) ⊢ (dats m 0 c).arrays (fun w => W (Pipeline.arrRef spec0 w)) := by
  rw [arrBufs_chain, arrays_chain]
  iintro ⟨H0, H1, H2, H3⟩
  ihave ⟨Ha, Hb⟩ := (pointsTo_share (PosShare.mem_left_op_right fullShare)).1 $$ H0
  isplitl [Ha]; · iexact Ha
  isplitl [Hb]; · iexact Hb
  isplitl [H1]; · iexact H1
  isplitl [H2]; · iexact H2
  iexact H3

theorem bufs_of_arrays (c : Dev nD) (W : (b : Ref sig .tc) → Buf (Elt F) ((c.tc : Thread nD τ).loc b)) :
    ((dats m 0 c).arrays (fun w => W (Pipeline.arrRef spec0 w)) : sProp 𝕄) ⊢ Pipeline.arrBufs spec0 c W := by
  rw [arrBufs_chain, arrays_chain]
  iintro ⟨Ha, Hb, H1, H2, H3⟩
  isplitl [Ha Hb]
  · iapply (pointsTo_share (PosShare.mem_left_op_right fullShare)).2
    isplitl [Ha]; · iexact Ha
    iexact Hb
  isplitl [H1]; · iexact H1
  isplitl [H2]; · iexact H2
  iexact H3

end Cert.KernelIdeal.Acc

end
-- ==== Proof.KI.Launch.lean ====
/-
  The run of the pair-loss program: the three host lines, the kernel region, the three host lines after it.

  The region is launched with the row window and the column window each holding half the share of the one array they
  read, so the launch is the library's general one-region theorem with the deal of the arrays stated here. When the
  region is left every buffer is as it was entered except the 1 x 1 result, which holds the last running total
  (`Wexit`). The two halves of the embeddings' share are then joined again, the three remaining host lines run on
  whole buffers (the result reshaped to a scalar, the constant, the quotient), and the final contents `Wfin` are read.
-/
import proofs.«120967_j51591147159598_1_alg».proof.Proof.KI.Obligation
import proofs.«120967_j51591147159598_1_alg».proof.Proof.KI.Shares
import Idealize.ShloMosaic.Lib.Pipeline.FrameSuffix

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the region's exit and at the end -/

open Classical in
/-- The buffers when the region is left: as it was entered, but the result at the last running total. -/
def Wexit (c : Dev nD) : Valuation τ sig (Elt F) :=
  Function.update (V0 m c) (Proc.devRef .tc main_v3) ((dats m 0 c).arrAt 4 cfg0.N)

/-- The buffers at the end of @main: after the three lines that follow the region. -/
def Wfin (c : Dev nD) (b : Ref sig .tc) : Buf (Elt F) ((c.tc : Thread nD τ).loc b) :=
  StableHlo.after hostOps1 (Wexit m c) (Proc.devRef .tc b)

theorem Wexit_result (c : Dev nD) : Wexit m c (Proc.devRef .tc main_v3) = (dats m 0 c).arrAt 4 cfg0.N := by
  unfold Wexit; exact Function.update_self ..

theorem Wexit_other (c : Dev nD) (b : Ref sig .tc) (h : b ≠ main_v3) : Wexit m c (Proc.devRef .tc b) = V m c b := by
  unfold Wexit; exact Function.update_of_ne (StableHlo.devRef_ne_of_ne h) ..

/-- Every array of the pipeline is, at the exit, what `Wexit` holds at its buffer: an input array is never written. -/
theorem arrAt_exit (c : Dev nD) : ∀ w : Fin cfg0.W, (dats m 0 c).arrAt w cfg0.N = Wexit m c (Proc.devRef .tc (Pipeline.arrRef spec0 w))
  | ⟨0, _⟩ => ((dats m 0 c).arrAt_in 0 rfl _).trans ((A_eq m c 0).trans (Wexit_other m c main_v0 (by decide)).symm)
  | ⟨1, _⟩ => ((dats m 0 c).arrAt_in 1 rfl _).trans ((A_eq m c 1).trans (Wexit_other m c main_v0 (by decide)).symm)
  | ⟨2, _⟩ => ((dats m 0 c).arrAt_in 2 rfl _).trans ((A_eq m c 2).trans (Wexit_other m c main_v1 (by decide)).symm)
  | ⟨3, _⟩ => ((dats m 0 c).arrAt_in 3 rfl _).trans ((A_eq m c 3).trans (Wexit_other m c main_v2 (by decide)).symm)
  | ⟨4, _⟩ => (Wexit_result m c).symm

/-- The lines after the region write the scalar, the constant and the quotient: no array of the pipeline. -/
theorem tail_keeps (b : Ref sig .tc) (h : b ≠ main_v4 ∧ b ≠ main_cst ∧ b ≠ main_v5) (W : Valuation τ sig (Elt F)) :
    StableHlo.after hostOps1 W (Proc.devRef .tc b) = W (Proc.devRef .tc b) :=
  StableHlo.after_of_writes_sub (W := [main_v4, main_cst, main_v5]) hostOps1 W
    (by simp only [hostOps1, List.Forall, StableHlo.reshape_writes, StableHlo.nullary_writes, StableHlo.binary_writes]
        refine ⟨?_, ?_, ?_⟩ <;> intro x hx <;> simp only [Finset.mem_singleton] at hx <;> subst hx <;> simp)
    (by simp only [List.mem_cons, List.mem_nil_iff, or_false, not_or]; exact h)

/-! ## All unscoped buffers, whole, against the arrays and the rest -/

/-- A core's unscoped buffers are the four behind the arrays and the rest. -/
theorem bufs_split (c : Dev nD) (W : (b : Ref sig .tc) → Buf (Elt F) ((c.tc : Thread nD τ).loc b)) :
    (unscopedBufs c W : sProp 𝕄) = iprop((Pipeline.arrBufs spec0 c W : sProp 𝕄) ∗ Pipeline.unscopedRest spec0 c W) :=
  Pipeline.unscopedBufs_split₀ cfgs (0 : Fin 1) winFacts₀0.arr_unscoped c W

/-- All unscoped buffers held at a valuation are the launch's unscoped buffers at it. -/
theorem held_eq (c : Dev nD) (W : Valuation τ sig (Elt F)) :
    (StableHlo.held (c.tc : Thread nD τ) (Pipeline.ucRefs τ sig) W : sProp 𝕄) = unscopedBufs c (fun b => W (Proc.devRef .tc b)) :=
  (Pipeline.unscopedBufs_held (Ix := Unit) (Name := ℕ) (U := UR sig nD τ) (Lvl := ℕ) c W).symm

/-- The arrays at `W` beside the other unscoped buffers at `W` are all unscoped buffers held at `W`, and back. -/
theorem held_of_arrays (c : Dev nD) (W : Valuation τ sig (Elt F)) :
    iprop((dats m 0 c).arrays (fun w => W (Proc.devRef .tc (Pipeline.arrRef spec0 w))) ∗ Pipeline.unscopedRest spec0 c (fun b => W (Proc.devRef .tc b)))
      ⊢ (StableHlo.held (c.tc : Thread nD τ) (Pipeline.ucRefs τ sig) W : sProp 𝕄) := by
  rw [held_eq, bufs_split]
  exact sep_mono (bufs_of_arrays m c (fun b => W (Proc.devRef .tc b))) .rfl

theorem arrays_of_held (c : Dev nD) (W : Valuation τ sig (Elt F)) :
    (StableHlo.held (c.tc : Thread nD τ) (Pipeline.ucRefs τ sig) W : sProp 𝕄)
      ⊢ iprop((dats m 0 c).arrays (fun w => W (Proc.devRef .tc (Pipeline.arrRef spec0 w))) ∗ Pipeline.unscopedRest spec0 c (fun b => W (Proc.devRef .tc b))) := by
  rw [held_eq, bufs_split]
  exact sep_mono (arrays_of_bufs m c (fun b => W (Proc.devRef .tc b))) .rfl

/-! ## The lines after the region -/

theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  subst hops
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- At the exit the arrays and the buffers that bypassed the region are all unscoped buffers held at `Wexit`. -/
theorem exit_held (c : Dev nD) :
    iprop((dats m 0 c).arrays ((dats m 0 c).arrAt · cfg0.N) ∗ Pipeline.unscopedRest spec0 c (V m c))
      ⊢ (StableHlo.held (c.tc : Thread nD τ) (Pipeline.ucRefs τ sig) (Wexit m c) : sProp 𝕄) := by
  have hA : ((dats m 0 c).arrAt · cfg0.N) = fun w => Wexit m c (Proc.devRef .tc (Pipeline.arrRef spec0 w)) := funext (arrAt_exit m c)
  have hZ : (Pipeline.unscopedRest spec0 c (V m c) : sProp 𝕄) = Pipeline.unscopedRest spec0 c (fun b => Wexit m c (Proc.devRef .tc b)) := by
    unfold Pipeline.unscopedRest
    exact bigSep_congr fun b hb => by
      dsimp only
      rw [Wexit_other m c b (fun e => (Finset.mem_sdiff.mp hb).2 (Finset.mem_image.mpr ⟨4, Finset.mem_univ _, by rw [e]⟩))]
  rw [hA, hZ]
  exact held_of_arrays m c (Wexit m c)

/-- No array of the pipeline is one of the three buffers the later lines write. -/
theorem arr_not_written : ∀ w : Fin 5, Pipeline.arrRef spec0 w ≠ main_v4 ∧ Pipeline.arrRef spec0 w ≠ main_cst ∧ Pipeline.arrRef spec0 w ≠ main_v5 := by
  decide

/-- After the lines, all unscoped buffers held are the arrays, still at their exit contents, and the rest at `Wfin`. -/
theorem held_end (c : Dev nD) :
    (StableHlo.held (c.tc : Thread nD τ) (Pipeline.ucRefs τ sig) (StableHlo.after hostOps1 (Wexit m c)) : sProp 𝕄)
      ⊢ iprop((dats m 0 c).arrays ((dats m 0 c).arrAt · cfg0.N) ∗ Pipeline.unscopedRest spec0 c (Wfin m c)) := by
  have hA : ((dats m 0 c).arrAt · cfg0.N) = fun w => StableHlo.after hostOps1 (Wexit m c) (Proc.devRef .tc (Pipeline.arrRef spec0 w)) :=
    funext fun w => (arrAt_exit m c w).trans (tail_keeps _ (arr_not_written w) _).symm
  rw [hA]
  exact arrays_of_held m c (StableHlo.after hostOps1 (Wexit m c))

set_option backward.isDefEq.respectTransparency.types false in
/-- The three lines after the region, from the region's exit: they run on whole buffers and hand back the arrays as the
    region left them and the other buffers at `Wfin`. -/
theorem tail_run (c : Dev nD) (Q' : PUnit → sProp 𝕄) :
    iprop((iprop((dats m 0 c).arrays ((dats m 0 c).arrAt · cfg0.N) ∗ Pipeline.unscopedRest spec0 c (Wfin m c)) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  iintro ⟨Hk, Hb, Haz⟩
  ihave Hh := (exit_held m c) $$ Haz
  rw [show ([StableHlo.seq hostOps1] : List (Prog (TpuEff nD τ sig (Elt F) (Pipeline.Sig Λ₀ (Fin 1) fun p => ((cfgs p).toPCfg (Val := Elt F)).Adm) .tc) PUnit))
      = ([hostOps1].map StableHlo.seq ++ []) from rfl]
  iapply (Pipeline.wp_seqs_then (fun q => (cfgs q).toPCfg (Val := Elt F)) defs₀ Variants.none c (Pipeline.ucRefs τ sig) [] [hostOps1] tail_sub tail_fresh (Wexit m c)) $$ [Hb Hh]
  · isplitl [Hb]; · iexact Hb
    iexact Hh
  iintro Hb
  rw [Pipeline.chain_nil, wp_pure]
  imodintro
  iapply Hk
  icases Hb with ⟨-, H⟩
  iapply (held_end m c)
  simp only [List.flatten_cons, List.flatten_nil, List.append_nil]
  iexact H

/-! ## The run -/

set_option backward.isDefEq.respectTransparency.types false in
/-- Every weakly fair execution of @main terminates, and in every final state the result, and the two arguments, hold
    what `Wfin` says. -/
theorem run_main : θ_run (defs (F := F)) (onTc (τ := τ) (main (F := F))) ⟨m, fun _ => 0, ρ⟩ (fun r => ∀ c : Dev nD,
      r.2.mem ((c.tc : Thread nD τ).loc main_v5) = Wfin m c main_v5
      ∧ r.2.mem ((c.tc : Thread nD τ).loc main_arg0) = Wfin m c main_arg0
      ∧ r.2.mem ((c.tc : Thread nD τ).loc main_arg1) = Wfin m c main_arg1) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m c (V m c))
    (hpf := fun _ k => k.elim0)
    (X := fun c => iprop(∃ r, prngReg c r)) (Y := fun c => iprop(∃ r, prngReg c r))
    (Z := fun c => Pipeline.unscopedRest spec0 c (V m c))
    (Z' := fun c => Pipeline.unscopedRest spec0 c (Wfin m c))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr]; · iexact Hr
      iexact Hp)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := tail_run m)
    (QY := fun c s => ∀ b ∈ Pipeline.restRefs sig spec0, s.mem ((c.tc : Thread nD τ).loc b) = Wfin m c b)
    (hY := fun c s' => by
      iintro ⟨-, HU, HSI⟩
      unfold Pipeline.unscopedRest
      imodintro
      iapply (pointsTo_read_all (Pipeline.restRefs sig spec0) (fun b => (c.tc : Thread nD τ).loc b) (Wfin m c) s')
      isplitl [HU] <;> iassumption)
    (hQ := fun s h c => ⟨(h c).2.2 main_v5 (by decide), (h c).2.2 main_arg0 (by decide), (h c).2.2 main_arg1 (by decide)⟩)

end Cert.KernelIdeal.Acc

end
-- ==== Proof.KI.Frame.lean ====
/-
  The frame claim of the pair-loss program: it runs to the end without a fault and leaves its two arguments as they were.

  Neither stretch of host lines writes an argument (the first writes the rounded embeddings and the two key layouts, the
  second the scalar, the constant and the quotient), and the region writes only the 1 x 1 result. So what the run
  finds in the arguments at the end is what the launch put there.
-/
import proofs.«120967_j51591147159598_1_alg».proof.Proof.KI.Launch

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The lines before the region write three buffers, none of them an argument. -/
theorem head_keeps (c : Dev nD) (b : Ref sig .tc) (h : b ≠ main_v0 ∧ b ≠ main_v1 ∧ b ≠ main_v2) :
    V m c b = m ((c.tc : Thread nD τ).loc b) :=
  StableHlo.after_of_writes_sub (W := [main_v0, main_v1, main_v2]) (List.flatten [hostOps0]) (fun b => m (c, b))
    (by simp only [hostOps0, List.flatten_cons, List.flatten_nil, List.append_nil, List.Forall, StableHlo.reshape_writes, StableHlo.unary_writes]
        refine ⟨?_, ?_, ?_⟩ <;> intro x hx <;> simp only [Finset.mem_singleton] at hx <;> subst hx <;> simp)
    (by simp only [List.mem_cons, List.mem_nil_iff, or_false, not_or]; exact h)

/-- An argument ends as launched. -/
theorem Wfin_arg (c : Dev nD) (b : Ref sig .tc) (h1 : b ≠ main_v0 ∧ b ≠ main_v1 ∧ b ≠ main_v2) (h2 : b ≠ main_v3)
    (h3 : b ≠ main_v4 ∧ b ≠ main_cst ∧ b ≠ main_v5) : Wfin m c b = m ((c.tc : Thread nD τ).loc b) := by
  unfold Wfin
  rw [tail_keeps b h3, Wexit_other m c b h2]
  exact head_keeps m c b h1

/-- The frame: every weakly fair execution terminates, nothing faults, the arguments end unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun _ h c =>
    ⟨(h c).2.1.trans (Wfin_arg m c main_arg0 (by decide) (by decide) (by decide)),
     (h c).2.2.trans (Wfin_arg m c main_arg1 (by decide) (by decide) (by decide))⟩) (run_main m ρ)

end Cert.KernelIdeal.Acc

end
-- ==== Proof.Spec.lean ====
/-
  What both programs compute, as one function of the embeddings and the order keys.

  For rows i and j of the embedding matrix let s(i,j) be their inner product and d(i,j) = 1 - s(i,j). A pair with equal
  order keys is charged d², a pair with different keys max(2 - d, 0)². Only pairs i < j count. The total is the sum of the
  charges over all ordered index pairs, the pairs with i ≥ j contributing the zero constant. The number the programs
  return is this total divided by the number of pairs, a division both apply to the total in the same way, so it is
  not part of this file.

  The float constants are kept as the extended reals their words denote; nothing here evaluates them.
-/
import Idealize.ShloMosaic.PureOps.Ideal
import Idealize.ShloMosaic.Lib.ValueIdx

noncomputable section

namespace Cert.PairLoss

open Idealize.ShloMosaic

/-- The constants of the loss: one, the margin two, and zero. -/
abbrev cOne : EReal := Ideal.ofBits .f32 0x3F800000#32
abbrev cTwo : EReal := Ideal.ofBits .f32 0x40000000#32
abbrev cZero : EReal := Ideal.ofBits .f32 0x00000000#32

/-- The embedding matrix's shape and the key vector's. -/
abbrev SEmb : Shape := ⟨2, ![8192, 256]⟩
abbrev SKey : Shape := ⟨1, ![8192]⟩

variable (x : Fin 8192 → Fin 256 → EReal) (key : Fin 8192 → BitVec 32)

/-- One minus the inner product of rows `i` and `j`. -/
def dist (i j : Fin 8192) : EReal := cOne - ∑ d : Fin 256, x i d * x j d

/-- The charge of the pair `(i, j)`: the squared distance for equal keys, the squared hinge at margin two otherwise. -/
def pairLoss (i j : Fin 8192) : EReal :=
  if key i = key j then dist x i j * dist x i j
  else max (cTwo - dist x i j) cZero * max (cTwo - dist x i j) cZero

/-- The charge where `i < j`, the zero constant elsewhere. -/
def masked (i j : Fin 8192) : EReal := if i.val < j.val then pairLoss x key i j else cZero

/-- The sum of the charges over all pairs. -/
def total : EReal := ∑ i : Fin 8192, ∑ j : Fin 8192, masked x key i j

/-- The rows of an embedding array and the entries of a key array, as functions of plain indices. -/
def rowsOf (X : SEmb.Idx → EReal) : Fin 8192 → Fin 256 → EReal := fun i d => X (ValueIdx.ix2 i d)
def keysOf (Kk : SKey.Idx → BitVec 32) : Fin 8192 → BitVec 32 := fun i => Kk (ValueIdx.ix1 i)

/-- The shape of a scalar result. -/
abbrev SScalar : Shape := ⟨0, ![]⟩

/-- The last step both programs take: the total, as a scalar array, divided by the number of pairs B(B-1)/2 = 33550336,
    the host's division by that constant. Both programs apply exactly this to their totals, so it is carried as one
    function and never opened. -/
def mean (T : EReal) : FVec Ideal SScalar .f32 :=
  Host.divf (F := Ideal) (fun _ => T) (constant (F := Ideal) SScalar .f32 0x4BFFF800#32)

end Cert.PairLoss

end
-- ==== Proof.KI.Blocks.lean ====
/-
  The four input blocks of a grid point, read element by element off the launch arrays.

  The 16 x 16 grid is walked row by row: point `t` is tile row `t / 16`, tile column `t % 16`. The row block of the
  embeddings is block `t / 16` of 512 rows, the column block is block `t % 16`; an element `(p, k)` of block `b` is the
  array's element `(512 * b + p, k)`. Rounding to the narrower float format is the identity on extended reals, so the
  rounded embeddings ARE the launch embeddings. The keys laid out as an 8192 x 1 column, resp. a 1 x 8192 row, hold key
  `i` at `(i, 0)`, resp. `(0, i)`: the rows' keys of point `t` are keys `512 * (t / 16) + p`, the columns' keys
  `512 * (t % 16) + q`.
-/
import proofs.«120967_j51591147159598_1_alg».proof.Proof.KI.Data
import proofs.«120967_j51591147159598_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal

set_option maxRecDepth 16384

noncomputable section

namespace Cert.KernelIdeal.Acc

open Idealize.ShloMosaic Idealize.ShloMosaic.TcCoe Idealize.ShloMosaic.Tactic
open Idealize.SL Idealize.SL.Sem
open Idealize.ShloMosaic.Pipeline (Dat Cfg Window)
open Idealize.ShloMosaic.StableHlo
open Cert.KernelIdeal.Gen Cert.PairLoss ValueIdx

variable (m : (ℓ : Loc nD τ sig) → Buf (Elt Ideal) ℓ) (c : Dev nD)

/-! ## The grid: point `t` is tile `(t / 16, t % 16)` -/

/-- The first grid coordinate of point `t` is its tile row. -/
theorem coord_row (t : Fin cfg0.N) : (grid0.coords t 0).val = t.val / 16 :=
  (by decide +kernel : ∀ t : Fin grid0.N, (grid0.coords t 0).val = t.val / 16) t

/-- The second grid coordinate of point `t` is its tile column. -/
theorem coord_col (t : Fin cfg0.N) : (grid0.coords t 1).val = t.val % 16 :=
  (by decide +kernel : ∀ t : Fin grid0.N, (grid0.coords t 1).val = t.val % 16) t

/-- The block index of each input window at point `t`: the row block and the rows' keys move with the tile row, the column
    block and the columns' keys with the tile column; the other axis is never split. -/
theorem index_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16 :=
  (by decide +kernel : ∀ t : Fin grid0.N, _)

/-! ## The three arrays the region reads, as functions of the launch arrays -/

/-- The rounded embeddings are the embeddings: rounding is the identity on extended reals. -/
theorem V_v0 : (V m c main_v0 : S8192x256.Idx → EReal) = (m ((c.tc : Thread nD τ).loc main_arg0) : S8192x256.Idx → EReal) := by
  show StableHlo.after hostOps0 (fun b => m (c, b)) (Proc.devRef .tc main_v0) = _
  after_results
  rfl

/-- The rows' keys: the key vector laid out as a column. -/
theorem V_v1 : (V m c main_v1 : S8192x1.Idx → BitVec 32) = shapeCast S8192x1 (m ((c.tc : Thread nD τ).loc main_arg1) : S8192.Idx → BitVec 32) shapeCasts_S8192_S8192x1 := by
  show StableHlo.after hostOps0 (fun b => m (c, b)) (Proc.devRef .tc main_v1) = _
  after_results
  rfl

/-- The columns' keys: the key vector laid out as a row. -/
theorem V_v2 : (V m c main_v2 : S1x8192.Idx → BitVec 32) = shapeCast S1x8192 (m ((c.tc : Thread nD τ).loc main_arg1) : S8192.Idx → BitVec 32) shapeCasts_S8192_S1x8192 := by
  show StableHlo.after hostOps0 (fun b => m (c, b)) (Proc.devRef .tc main_v2) = _
  after_results
  rfl

/-! ## The blocks, element by element -/

/-- Element `(p, k)` of the row block at point `t` is coordinate `k` of embedding `512 * (t / 16) + p`. -/
theorem rowBlk_apply (t : Fin cfg0.N) (p : Fin 512) (k : Fin 256) :
    rowBlk (F := Ideal) m c t (ix2 p k)
      = rowsOf (m ((c.tc : Thread nD τ).loc main_arg0)) ⟨512 * (t.val / 16) + p.val, by have := t.isLt; have := p.isLt; have : cfg0.N = 256 := N_0; omega⟩ k := by
  obtain ⟨e0, e1, -⟩ := index_facts t
  show (V m c main_v0 : S8192x256.Idx → EReal) (((cfg0.win 0).blk t).view.emb (ix2 p k))
    = (m ((c.tc : Thread nD τ).loc main_arg0) : S8192x256.Idx → EReal) (ix2 ⟨512 * (t.val / 16) + p.val, _⟩ k)
  refine (congrArg (V m c main_v0 : S8192x256.Idx → EReal) ?_).trans (congrFun (V_v0 m c) _)
  funext a; apply Fin.ext
  match a with
  | ⟨0, _⟩ => show win0_0.index t (0 : Fin 2) * 512 + 1 * p.val = 512 * (t.val / 16) + p.val; omega
  | ⟨1, _⟩ => show win0_0.index t (1 : Fin 2) * 256 + 1 * k.val = k.val; omega

/-- Element `(q, k)` of the column block at point `t` is coordinate `k` of embedding `512 * (t % 16) + q`. -/
theorem colBlk_apply (t : Fin cfg0.N) (q : Fin 512) (k : Fin 256) :
    colBlk (F := Ideal) m c t (ix2 q k)
      = rowsOf (m ((c.tc : Thread nD τ).loc main_arg0)) ⟨512 * (t.val % 16) + q.val, by have := q.isLt; omega⟩ k := by
  obtain ⟨-, -, e0, e1, -⟩ := index_facts t
  show (V m c main_v0 : S8192x256.Idx → EReal) (((cfg0.win 1).blk t).view.emb (ix2 q k))
    = (m ((c.tc : Thread nD τ).loc main_arg0) : S8192x256.Idx → EReal) (ix2 ⟨512 * (t.val % 16) + q.val, _⟩ k)
  refine (congrArg (V m c main_v0 : S8192x256.Idx → EReal) ?_).trans (congrFun (V_v0 m c) _)
  funext a; apply Fin.ext
  match a with
  | ⟨0, _⟩ => show win0_1.index t (0 : Fin 2) * 512 + 1 * q.val = 512 * (t.val % 16) + q.val; omega
  | ⟨1, _⟩ => show win0_1.index t (1 : Fin 2) * 256 + 1 * k.val = k.val; omega

/-- The keys laid out as a column read, at a row, the key of that row. -/
theorem keyColumn_apply (x : S8192.Idx → BitVec 32) (j : S8192x1.Idx) (i : Fin 8192) (h0 : (j 0).val = i.val) :
    shapeCast S8192x1 x shapeCasts_S8192_S8192x1 j = x (ix1 i) :=
  shapeCast_apply (s := S8192) (t := S8192x1) x shapeCasts_S8192_S8192x1 j (ix1 i) (by
    rw [Shape.rowMajor_val_two, Shape.rowMajor_val_one]
    show i.val = (j 0).val * 1 + (j 1).val
    have h1 : (j 1).val < 1 := (j 1).isLt
    omega)

/-- The keys laid out as a row read, at a column, the key of that column. -/
theorem keyRow_apply (x : S8192.Idx → BitVec 32) (j : S1x8192.Idx) (i : Fin 8192) (h1 : (j 1).val = i.val) :
    shapeCast S1x8192 x shapeCasts_S8192_S1x8192 j = x (ix1 i) :=
  shapeCast_apply (s := S8192) (t := S1x8192) x shapeCasts_S8192_S1x8192 j (ix1 i) (by
    rw [Shape.rowMajor_val_two, Shape.rowMajor_val_one]
    show i.val = (j 0).val * 8192 + (j 1).val
    have h0 : (j 0).val < 1 := (j 0).isLt
    omega)

/-- Entry `p` of the rows' keys at point `t` is the key of embedding `512 * (t / 16) + p`. -/
theorem rowKeys_apply (t : Fin cfg0.N) (p : Fin 512) :
    rowKeys (F := Ideal) m c t (ix2 p 0)
      = keysOf (m ((c.tc : Thread nD τ).loc main_arg1)) ⟨512 * (t.val / 16) + p.val, by have := t.isLt; have := p.isLt; have : cfg0.N = 256 := N_0; omega⟩ := by
  obtain ⟨-, -, -, -, e0, -⟩ := index_facts t
  show (V m c main_v1 : S8192x1.Idx → BitVec 32) (((cfg0.win 2).blk t).view.emb (ix2 p 0))
    = (m ((c.tc : Thread nD τ).loc main_arg1) : S8192.Idx → BitVec 32) (ix1 ⟨512 * (t.val / 16) + p.val, _⟩)
  rw [V_v1]
  refine keyColumn_apply _ _ _ ?_
  show win0_2.index t (0 : Fin 2) * 512 + 1 * p.val = 512 * (t.val / 16) + p.val
  omega

/-- Entry `q` of the columns' keys at point `t` is the key of embedding `512 * (t % 16) + q`. -/
theorem colKeys_apply (t : Fin cfg0.N) (q : Fin 512) :
    colKeys (F := Ideal) m c t (ix2 0 q)
      = keysOf (m ((c.tc : Thread nD τ).loc main_arg1)) ⟨512 * (t.val % 16) + q.val, by have := q.isLt; omega⟩ := by
  obtain ⟨-, -, -, -, -, -, -, e1⟩ := index_facts t
  show (V m c main_v2 : S1x8192.Idx → BitVec 32) (((cfg0.win 3).blk t).view.emb (ix2 0 q))
    = (m ((c.tc : Thread nD τ).loc main_arg1) : S8192.Idx → BitVec 32) (ix1 ⟨512 * (t.val % 16) + q.val, _⟩)
  rw [V_v2]
  refine keyRow_apply _ _ _ ?_
  show win0_3.index t (1 : Fin 2) * 512 + 1 * q.val = 512 * (t.val % 16) + q.val
  omega

end Cert.KernelIdeal.Acc

end
-- ==== Proof.KI.StepValue.lean ====
/-
  One grid point of the pair-loss kernel, read at an index.

  The kernel walks a 16 x 16 grid of 512 x 512 tiles of the 8192 x 8192 matrix of pairs. At tile row r and tile column s
  it holds rows 512 r + p of the embeddings (the tile's rows), rows 512 s + q (the tile's columns) and the two blocks of
  keys. The tile's entry at (p, q) is built from the inner product g = sum over d of x(512 r + p, d) x(512 s + q, d): the
  distance 1 - g, its square where the two keys are equal and the squared hinge max(2 - (1 - g), 0)^2 where they differ,
  kept where 512 r + p < 512 s + q and replaced by zero elsewhere. That is the masked charge of the global pair
  (512 r + p, 512 s + q). The tile is summed along its columns, the row sums along the rows, and the one number is added
  to the running total.

  This file proves that reading: the update's one entry is the running total's entry plus the double sum over (p, q) of the
  masked charges of the global pairs. The steps, each a small lemma over literal index types:
    the contraction of two 512 x 256 blocks along their second axis, into a zero accumulator, is the inner product of
      row p of the first with row q of the second;
    the comparison of the words 512 r + p and 512 s + q, read signed, is the comparison of the numbers, both far below 2^31;
    a sum along one axis of a matrix is the finite sum over that axis's coordinate;
    a vector viewed as a column, a one-entry vector viewed as a one-by-one matrix, a column or a row spread over the
      tile, and the two coordinate counters read the entry the name says.
  The float constants stay the extended reals their words denote; only the zero word is evaluated, where a sum starts from it.
-/
import proofs.«120967_j51591147159598_1_alg».proof.Proof.KI.Body
import proofs.«120967_j51591147159598_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Affine
import Idealize.ShloMosaic.Lib.StableHlo.Predicate

set_option maxRecDepth 16384

noncomputable section

namespace Cert.KernelIdeal.Acc

open Idealize.ShloMosaic Idealize.ShloMosaic.ValueIdx
open Cert.KernelIdeal.Gen Cert.PairLoss
open scoped BigOperators

theorem zero_block : k0_pay2 (F := Ideal) (ix2 0 0) = 0 := by
  show Ideal.ofBits .f32 0x00000000#32 = 0
  exact Ideal.ofBits_zero_f32

abbrev gramDims := dot_S512x256_S512x256_S512x512_1_1_0_0_n_n

theorem gram_lhs_row (j : S512x512.Idx) (q : gramDims.contr.Idx) :
    (gramDims.lhsIdx j q 0).val = (j 0).val := by
  unfold DotDims.lhsIdx
  rw [dif_neg (show ¬(0 : Fin S512x256.rank) ∈ gramDims.lhsBatch by decide), dif_pos (show (0 : Fin S512x256.rank) ∈ gramDims.lhsNonContracting by decide)]
  rfl
theorem gram_lhs_col (j : S512x512.Idx) (q : gramDims.contr.Idx) :
    (gramDims.lhsIdx j q 1).val = (q ⟨0, by decide⟩).val :=
  gramDims.lhsIdx_val_of_single rfl j q
theorem gram_rhs_row (j : S512x512.Idx) (q : gramDims.contr.Idx) :
    (gramDims.rhsIdx j q 0).val = (j 1).val := by
  unfold DotDims.rhsIdx
  rw [dif_neg (show ¬(0 : Fin S512x256.rank) ∈ gramDims.rhsBatch by decide), dif_pos (show (0 : Fin S512x256.rank) ∈ gramDims.rhsNonContracting by decide)]
  rfl
theorem gram_rhs_col (j : S512x512.Idx) (q : gramDims.contr.Idx) :
    (gramDims.rhsIdx j q 1).val = (q ⟨0, by decide⟩).val :=
  gramDims.rhsIdx_val_of_single rfl j q

theorem gram_apply (a b : FVec Ideal S512x256 .bf16) (p q : Fin 512) :
    matmul gramDims none a b (constant (F := Ideal) S512x512 .f32 0x00000000#32) (ix2 p q)
      = ∑ k : Fin 256, a (ix2 p k) * b (ix2 q k) := by
  simp only [matmul]
  rw [Ideal.matmul_constant_zero_apply, ← Equiv.sum_comp (contrEquiv1 gramDims 256 rfl rfl).symm]
  refine Finset.sum_congr rfl fun k _ => ?_
  have hk := contrEquiv1_symm_val gramDims 256 rfl rfl k
  have el : gramDims.lhsIdx (ix2 p q) ((contrEquiv1 gramDims 256 rfl rfl).symm k) = ix2 p k := funext fun c => Fin.ext (by
    match c with
    | ⟨0, _⟩ => exact gram_lhs_row _ _
    | ⟨1, _⟩ => exact (gram_lhs_col _ _).trans hk)
  have er : gramDims.rhsIdx (ix2 p q) ((contrEquiv1 gramDims 256 rfl rfl).symm k) = ix2 q k := funext fun c => Fin.ext (by
    match c with
    | ⟨0, _⟩ => exact gram_rhs_row _ _
    | ⟨1, _⟩ => exact (gram_rhs_col _ _).trans hk)
  rw [el, er]

/-- A word comparison at an index compares the words. -/
theorem cmpi_at {s : Shape} {w : Nat} (c : CmpIPredicate) (a b : IVec s w) (j : s.Idx) : cmpi c a b j = IntOp.cmpi c (a j) (b j) := rfl
/-- A word sum at an index adds the words. -/
theorem addi_at {s : Shape} {w : Nat} (a b : IVec s w) (j : s.Idx) : addi a b j = IntOp.addi (a j) (b j) := rfl

/-- Equality of two words as a select's condition is the `if` on the equality. -/
theorem select_eq_words {α : Type} {w : Nat} (a b : BitVec w) (A B : α) :
    Scalar.select (IntOp.cmpi .eq a b) A B = if a = b then A else B := by
  by_cases h : a = b
  · rw [if_pos h, (Idealize.ShloMosaic.StableHlo.Predicate.cmpi_eq_iff).mpr h]; exact select_one A B
  · rw [if_neg h, eq_zero_of_ne_one (fun hh => h ((Idealize.ShloMosaic.StableHlo.Predicate.cmpi_eq_iff).mp hh))]; exact select_zero A B

/-- Global row `512 r + p` against global column `512 s + q`, as 32-bit words compared signed: the words are far below
    `2 ^ 31`, so the comparison is that of the numbers. -/
theorem select_triangle {α : Type} (r s p q : Nat) (hr : r < 16) (hs : s < 16) (hp : p < 512) (hq : q < 512) (A B : α) :
    Scalar.select (IntOp.cmpi .slt (IntOp.addi (Scalar.muli (BitVec.ofNat 32 r) 512#32) (BitVec.ofNat 32 p))
        (IntOp.addi (Scalar.muli (BitVec.ofNat 32 s) 512#32) (BitVec.ofNat 32 q))) A B
      = if 512 * r + p < 512 * s + q then A else B := by
  have h512 : Affine.IsInt 512#32 512 := Affine.ofNat 512 ⟨by norm_num, by norm_num⟩
  have ha : Affine.IsInt (Scalar.addi (Scalar.muli (BitVec.ofNat 32 r) 512#32) (BitVec.ofNat 32 p)) ((r : Int) * 512 + p) :=
    Affine.addi (Affine.muli (Affine.ofNat r ⟨rfl, by omega⟩) h512 ⟨rfl, by omega, by omega⟩) (Affine.ofNat p ⟨rfl, by omega⟩)
      ⟨rfl, by omega, by omega⟩
  have hb : Affine.IsInt (Scalar.addi (Scalar.muli (BitVec.ofNat 32 s) 512#32) (BitVec.ofNat 32 q)) ((s : Int) * 512 + q) :=
    Affine.addi (Affine.muli (Affine.ofNat s ⟨rfl, by omega⟩) h512 ⟨rfl, by omega, by omega⟩) (Affine.ofNat q ⟨rfl, by omega⟩)
      ⟨rfl, by omega, by omega⟩
  by_cases h : 512 * r + p < 512 * s + q
  · rw [if_pos h]
    have := Affine.slt_holds ha hb (by omega)
    exact (show Scalar.select (Scalar.cmpi .slt (Scalar.addi _ _) (Scalar.addi _ _)) A B = A by rw [this]; exact select_one A B)
  · rw [if_neg h]
    have := Affine.slt_fails ha hb (by omega)
    exact (show Scalar.select (Scalar.cmpi .slt (Scalar.addi _ _) (Scalar.addi _ _)) A B = B by rw [eq_zero_of_ne_one this]; exact select_zero A B)

/-- The sum over a tile's columns, read at row `p`. -/
theorem rowSum_read (src : FVec Ideal S512x512 .f32) (p : Fin 512) :
    multiReduction .add [1] S512 src 0x00000000#32 reduces_S512x512_S512 (.inl rfl) rfl (ix1 p) = ∑ q : Fin 512, src (ix2 p q) := by
  refine (Ideal.multiReduction_add_single src _ reduces_S512x512_S512 _ _ (ix1 p)).trans ?_
  refine Finset.sum_congr rfl fun q _ => congrArg src ?_
  funext c
  match c with
  | ⟨0, _⟩ => rfl
  | ⟨1, _⟩ => rfl

/-- The sum over a column vector's rows, read at its one entry. -/
theorem colSum_read (src : FVec Ideal S512x1 .f32) :
    multiReduction .add [0] S1 src 0x00000000#32 reduces_S512x1_S1 (.inl rfl) rfl (ix1 0) = ∑ p : Fin 512, src (ix2 p 0) := by
  refine (Ideal.multiReduction_add_single src _ reduces_S512x1_S1 _ _ (ix1 0)).trans ?_
  refine Finset.sum_congr rfl fun p _ => congrArg src ?_
  funext c
  match c with
  | ⟨0, _⟩ => rfl
  | ⟨1, _⟩ => rfl

/-- A vector viewed as a one-column matrix reads its entry. -/
theorem asColumn_read {α : Type} (v : S512.Idx → α) (p : Fin 512) :
    shapeCast S512x1 v shapeCasts_S512_S512x1 (ix2 p 0) = v (ix1 p) :=
  shapeCast_apply v shapeCasts_S512_S512x1 _ _ (by
    rw [Shape.rowMajor_val_one, Shape.rowMajor_val_two]
    show p.val = p.val * 1 + 0
    omega)

/-- A one-entry vector viewed as a one-by-one matrix reads its entry. -/
theorem asCell_read {α : Type} (v : S1.Idx → α) :
    shapeCast S1x1 v shapeCasts_S1_S1x1 (ix2 0 0) = v (ix1 0) :=
  shapeCast_a_1a_apply v shapeCasts_S1_S1x1 0 0

/-- One column broadcast over many reads, at `(p, q)`, the column's row `p`. -/
theorem spreadColumn_read {α : Type} (v : S512x1.Idx → α) (p q : Fin 512) :
    broadcastTo S512x512 v broadcasts_S512x1_S512x512 (ix2 p q) = v (ix2 p 0) := by
  refine broadcastTo_apply v broadcasts_S512x1_S512x512 (ix2 p q) (ix2 p 0) fun ax => ?_
  match ax with
  | ⟨0, _⟩ => rfl
  | ⟨1, _⟩ => rfl

/-- One row broadcast over many reads, at `(p, q)`, the row's column `q`. -/
theorem spreadRow_read {α : Type} (v : S1x512.Idx → α) (p q : Fin 512) :
    broadcastTo S512x512 v broadcasts_S1x512_S512x512 (ix2 p q) = v (ix2 0 q) :=
  broadcastTo_1b_ab_apply v broadcasts_S1x512_S512x512 p q

/-- The row counter reads the row. -/
theorem rowIota_read (p q : Fin 512) : iota .tc S512x512 32 [0] iota_S512x512_d0_w32 (ix2 p q) = BitVec.ofNat 32 p.val :=
  iota_single_apply .tc S512x512 32 0 iota_S512x512_d0_w32 (ix2 p q)
/-- The column counter reads the column. -/
theorem colIota_read (p q : Fin 512) : iota .tc S512x512 32 [1] iota_S512x512_d1_w32 (ix2 p q) = BitVec.ofNat 32 q.val :=
  iota_single_apply .tc S512x512 32 1 iota_S512x512_d1_w32 (ix2 p q)

/-- Row `p` of tile row `r` (column `p` of tile column `r`) as a row of the whole matrix. -/
def tileRow (r : Fin 16) (p : Fin 512) : Fin 8192 := ⟨512 * r.val + p.val, by have := r.isLt; have := p.isLt; omega⟩

theorem tileRow_val (r : Fin 16) (p : Fin 512) : (tileRow r p).val = 512 * r.val + p.val := rfl

/-- The tile's row sums: at row `p`, the sum over the tile's columns of the masked charges of the global pairs. -/
theorem rowSums_read (i : grid0.Coords) (r s : Fin 16) (hr : (i 0).val = r.val) (hs : (i 1).val = s.val)
    (x0 x1 : FVec Ideal S512x256 .bf16) (k0 : IVec S512x1 32) (k1 : IVec S1x512 32)
    (x : Fin 8192 → Fin 256 → EReal) (key : Fin 8192 → BitVec 32)
    (hx0 : ∀ (p : Fin 512) (k : Fin 256), x0 (ix2 p k) = x (tileRow r p) k)
    (hx1 : ∀ (q : Fin 512) (k : Fin 256), x1 (ix2 q k) = x (tileRow s q) k)
    (hk0 : ∀ p : Fin 512, k0 (ix2 p 0) = key (tileRow r p))
    (hk1 : ∀ q : Fin 512, k1 (ix2 0 q) = key (tileRow s q)) (p : Fin 512) :
    k0_pay3 (F := Ideal) i x0 x1 k0 k1 (ix1 p) = ∑ q : Fin 512, masked x key (tileRow r p) (tileRow s q) := by
  unfold k0_pay3
  refine (rowSum_read _ p).trans (Finset.sum_congr rfl fun q _ => ?_)
  simp only [select_apply, cmpi_at, addi_at, subf_apply, mulf_apply, maximumf_apply, broadcast_apply,
    shapeCast_self, spreadColumn_read, spreadRow_read, gram_apply, hx0, hx1, hk0, hk1]
  rw [rowIota_read, colIota_read, hr, hs, select_triangle r.val s.val p.val q.val r.isLt s.isLt p.isLt q.isLt, select_eq_words]
  rfl

/-- The tile's total added to the running total: the running total plus the sum of the row sums. -/
theorem tileTotal_read (v : FVec Ideal S512 .f32) (acc : FVec Ideal S1x1 .f32) :
    k0_pay1 (F := Ideal) v acc (ix2 0 0) = acc (ix2 0 0) + ∑ p : Fin 512, v (ix1 p) := by
  unfold k0_pay1
  simp only [addf_apply, shapeCast_self, asCell_read]
  rw [colSum_read]
  simp only [asColumn_read]

/-- ONE GRID POINT: at tile row `r` and tile column `s`, from blocks that hold rows `512 r + p` and `512 s + q` of the
    embeddings and the keys, the accumulator's entry ends at what it held plus the tile's masked charges. -/
theorem step_total_at (i : grid0.Coords) (r s : Fin 16) (hr : (i 0).val = r.val) (hs : (i 1).val = s.val)
    (x0 x1 : FVec Ideal S512x256 .bf16) (k0 : IVec S512x1 32) (k1 : IVec S1x512 32) (acc : FVec Ideal S1x1 .f32)
    (x : Fin 8192 → Fin 256 → EReal) (key : Fin 8192 → BitVec 32)
    (hx0 : ∀ (p : Fin 512) (k : Fin 256), x0 (ix2 p k) = x (tileRow r p) k)
    (hx1 : ∀ (q : Fin 512) (k : Fin 256), x1 (ix2 q k) = x (tileRow s q) k)
    (hk0 : ∀ p : Fin 512, k0 (ix2 p 0) = key (tileRow r p))
    (hk1 : ∀ q : Fin 512, k1 (ix2 0 q) = key (tileRow s q)) :
    step (F := Ideal) i x0 x1 k0 k1 acc (ix2 0 0)
      = acc (ix2 0 0) + ∑ p : Fin 512, ∑ q : Fin 512, masked x key (tileRow r p) (tileRow s q) := by
  unfold step
  rw [tileTotal_read]
  exact congrArg (acc (ix2 0 0) + ·) (Finset.sum_congr rfl fun p _ => rowSums_read i r s hr hs x0 x1 k0 k1 x key hx0 hx1 hk0 hk1 p)

/-- The same with the tile's position read off the grid coordinates themselves. -/
theorem step_total (i : grid0.Coords)
    (x0 x1 : FVec Ideal S512x256 .bf16) (k0 : IVec S512x1 32) (k1 : IVec S1x512 32) (acc : FVec Ideal S1x1 .f32)
    (x : Fin 8192 → Fin 256 → EReal) (key : Fin 8192 → BitVec 32)
    (hx0 : ∀ (p : Fin 512) (k : Fin 256), x0 (ix2 p k) = x (tileRow (i 0) p) k)
    (hx1 : ∀ (q : Fin 512) (k : Fin 256), x1 (ix2 q k) = x (tileRow (i 1) q) k)
    (hk0 : ∀ p : Fin 512, k0 (ix2 p 0) = key (tileRow (i 0) p))
    (hk1 : ∀ q : Fin 512, k1 (ix2 0 q) = key (tileRow (i 1) q)) :
    step (F := Ideal) i x0 x1 k0 k1 acc (ix2 0 0)
      = acc (ix2 0 0) + ∑ p : Fin 512, ∑ q : Fin 512, masked x key (tileRow (i 0) p) (tileRow (i 1) q) :=
  step_total_at i (i 0) (i 1) rfl rfl x0 x1 k0 k1 acc x key hx0 hx1 hk0 hk1

end Cert.KernelIdeal.Acc

end
-- ==== Proof.LibTileSum.lean ====
import Mathlib.Algebra.BigOperators.Fin

/-! Sums over a square index set regrouped by square tiles, and a running total read as a finite sum.

A side of `G * B` entries splits into `G` blocks of `B` consecutive entries: entry `B * a + p` is entry `p` of block `a`.
A double sum over the square of that side is therefore the sum, over the `G × G` grid of tiles, of each tile's own
`B × B` double sum; walking the grid row by row numbers tile `(a, b)` as `G * a + b`, so tile `t` sits in tile row `t / G`
and tile column `t % G`. -/

namespace Cert.TileSum

open Finset

variable {M : Type*} [AddCommMonoid M]

/-- Entry `p` of block `a`, of `G` blocks of `B` entries each, lies inside the side of `G * B` entries. -/
theorem block_entry_lt {G B a p : ℕ} (ha : a < G) (hp : p < B) : B * a + p < G * B :=
  calc B * a + p < B * a + B := Nat.add_lt_add_left hp _
    _ = B * (a + 1) := (Nat.mul_succ B a).symm
    _ ≤ B * G := Nat.mul_le_mul_left B ha
    _ = G * B := Nat.mul_comm B G

/-- A sum along a side of `G * B` entries is the sum over the `G` blocks of each block's `B` entries. -/
theorem sum_blocks {G B : ℕ} (h : Fin (G * B) → M) :
    ∑ i : Fin (G * B), h i = ∑ a : Fin G, ∑ p : Fin B, h ⟨B * a.val + p.val, block_entry_lt a.isLt p.isLt⟩ := by
  rw [← (finProdFinEquiv (m := G) (n := B)).sum_comp h, Fintype.sum_prod_type]
  refine Fintype.sum_congr _ _ fun a => Fintype.sum_congr _ _ fun p => ?_
  congr 1
  exact Fin.ext (Nat.add_comm _ _)

/-- A sum over the `G × G` grid of tiles equals the sum over its `G * G` points visited row by row: point `t` is the
tile in row `t / G` and column `t % G`. -/
theorem sum_grid {G : ℕ} (F : Fin G → Fin G → M) :
    ∑ t : Fin (G * G), F ⟨t.val / G, Nat.div_lt_of_lt_mul t.isLt⟩
        ⟨t.val % G, Nat.mod_lt _ (Nat.pos_of_ne_zero fun h => by have := t.isLt; simp [h] at this)⟩
      = ∑ a : Fin G, ∑ b : Fin G, F a b := by
  rw [sum_blocks]
  refine Fintype.sum_congr _ _ fun a => Fintype.sum_congr _ _ fun b => ?_
  have hG : 0 < G := Nat.pos_of_ne_zero fun h => by have := b.isLt; omega
  congr 1
  · exact Fin.ext (by
      show (G * a.val + b.val) / G = a.val
      rw [Nat.mul_add_div hG, Nat.div_eq_of_lt b.isLt, Nat.add_zero])
  · exact Fin.ext (by
      show (G * a.val + b.val) % G = b.val
      rw [Nat.mul_add_mod, Nat.mod_eq_of_lt b.isLt])

/-- A double sum over the square of side `G * B` is the sum over the `G × G` tiles of each tile's `B × B` double sum. -/
theorem sum_square_blocks {G B : ℕ} (f : Fin (G * B) → Fin (G * B) → M) :
    ∑ i : Fin (G * B), ∑ j : Fin (G * B), f i j
      = ∑ a : Fin G, ∑ b : Fin G, ∑ p : Fin B, ∑ q : Fin B,
          f ⟨B * a.val + p.val, block_entry_lt a.isLt p.isLt⟩ ⟨B * b.val + q.val, block_entry_lt b.isLt q.isLt⟩ := by
  rw [sum_blocks]
  refine Fintype.sum_congr _ _ fun a => ?_
  refine Eq.trans ?_ Finset.sum_comm
  refine Fintype.sum_congr _ _ fun p => ?_
  exact sum_blocks _

/-- The 8192 × 8192 square summed as 256 tiles of 512 × 512, the 16 × 16 grid of tiles walked row by row: tile `t` is
tile row `t / 16`, tile column `t % 16`. -/
theorem sum_tiles (f : Fin 8192 → Fin 8192 → M) :
    ∑ i : Fin 8192, ∑ j : Fin 8192, f i j
      = ∑ t : Fin 256, ∑ p : Fin 512, ∑ q : Fin 512,
          f ⟨512 * (t.val / 16) + p.val, by have := t.isLt; have := p.isLt; omega⟩
            ⟨512 * (t.val % 16) + q.val, by have := t.isLt; have := q.isLt; omega⟩ := by
  have hsq := sum_square_blocks (G := 16) (B := 512) (M := M) f
  have hgrid := sum_grid (G := 16) (M := M) fun a b => ∑ p : Fin 512, ∑ q : Fin 512,
    f ⟨512 * a.val + p.val, block_entry_lt a.isLt p.isLt⟩ ⟨512 * b.val + q.val, block_entry_lt b.isLt q.isLt⟩
  exact hsq.trans hgrid.symm

/-- A running total that starts at `0 + g 0` and adds `g (n + 1)` at step `n + 1` holds, after step `n`, the sum of
`g 0, …, g n`. -/
theorem fold_eq_sum (g : ℕ → M) (a : ℕ → M) (h0 : a 0 = 0 + g 0) (hs : ∀ n, a (n + 1) = a n + g (n + 1)) (n : ℕ) :
    a n = ∑ t ∈ Finset.range (n + 1), g t := by
  induction n with
  | zero => rw [h0, zero_add, Finset.sum_range_one]
  | succ n ih => rw [hs, ih, Finset.sum_range_succ _ (n + 1)]

/-- The sum of the first `N` terms of a sequence, written over the `N` points of `Fin N`. -/
theorem sum_range_eq_sum_fin (g : ℕ → M) (N : ℕ) : ∑ t ∈ Finset.range N, g t = ∑ t : Fin N, g t.val :=
  Finset.sum_range g

/-- The running total after its last step, over the 256 tiles: the sum over `Fin 256`. -/
theorem fold_eq_sum_tiles (g : ℕ → M) (a : ℕ → M) (h0 : a 0 = 0 + g 0) (hs : ∀ n, a (n + 1) = a n + g (n + 1)) :
    a 255 = ∑ t : Fin 256, g t.val :=
  (fold_eq_sum g a h0 hs 255).trans (sum_range_eq_sum_fin g 256)

end Cert.TileSum
-- ==== Proof.KI.Value.lean ====
/-
  What the pair-loss program returns, at the ideal instance: the mean of the pair losses.

  At point `t` of the 16 x 16 grid the body adds to the running total the sum of the masked losses over tile `t`: its
  four blocks are rows `512 (t / 16) + p` and `512 (t % 16) + q` of the embeddings and the matching keys, and `step` read
  at the one cell of the accumulator is the old total plus the tile's double sum. Starting from the zero block, after the
  last point the accumulator holds the sum over the 256 tiles, which is the sum over all 8192 x 8192 pairs regrouped by
  tiles: the specification's `total`. The pipeline writes that cell back into the 1 x 1 result once, after the last
  point; the lines after the region reshape it to a scalar and divide by the number of pairs: `mean`.
-/
import proofs.«120967_j51591147159598_1_alg».proof.Proof.KI.Frame
import proofs.«120967_j51591147159598_1_alg».proof.Proof.KI.Blocks
import proofs.«120967_j51591147159598_1_alg».proof.Proof.KI.StepValue
import proofs.«120967_j51591147159598_1_alg».proof.Proof.LibTileSum
import proofs.«120967_j51591147159598_1_alg».proof.Proof.Spec
import Idealize.ShloMosaic.Lib.Pipeline.Value
import Idealize.ShloMosaic.Lib.StableHlo.Run

set_option maxRecDepth 16384

noncomputable section

namespace Cert.KernelIdeal.Acc

open Idealize.ShloMosaic Idealize.ShloMosaic.TcCoe Idealize.ShloMosaic.Tactic
open Idealize.SL Idealize.SL.Sem
open Idealize.ShloMosaic.Pipeline (Dat Cfg Window)
open Idealize.ShloMosaic.StableHlo
open Cert.KernelIdeal.Gen Cert.PairLoss ValueIdx

variable (m : (ℓ : Loc nD τ sig) → Buf (Elt Ideal) ℓ) (ρ : Dev nD → PrngReg) (c : Dev nD)

/-- The rows of the embeddings and the keys the program was launched on. -/
abbrev rowsIn : Fin 8192 → Fin 256 → EReal := rowsOf (m ((c.tc : Thread nD τ).loc main_arg0))
abbrev keysIn : Fin 8192 → BitVec 32 := keysOf (m ((c.tc : Thread nD τ).loc main_arg1))

/-- The sum of the masked losses over tile `n` of the grid in point order (nothing past the grid). -/
def tileSum (n : ℕ) : EReal :=
  if h : n < 256 then
    ∑ p : Fin 512, ∑ q : Fin 512, masked (rowsIn m c) (keysIn m c)
      ⟨512 * (n / 16) + p.val, by have := p.isLt; omega⟩ ⟨512 * (n % 16) + q.val, by have := q.isLt; omega⟩
  else 0

/-- One point adds its tile's sum to the running total. -/
theorem step_point (t : Fin cfg0.N) (acc : FVec Ideal S1x1 .f32) :
    step (F := Ideal) (grid0.coords t) (rowBlk m c t) (colBlk m c t) (rowKeys m c t) (colKeys m c t) acc (ix2 0 0)
      = acc (ix2 0 0) + tileSum m c t.val := by
  have hN : t.val < 256 := lt_of_lt_of_eq t.isLt N_0
  rw [step_total_at (grid0.coords t) ⟨t.val / 16, by omega⟩ ⟨t.val % 16, Nat.mod_lt _ (by decide)⟩ (coord_row t) (coord_col t)
    (rowBlk m c t) (colBlk m c t) (rowKeys m c t) (colKeys m c t) acc (rowsIn m c) (keysIn m c)
    (fun p k => rowBlk_apply m c t p k) (fun q k => colBlk_apply m c t q k) (fun p => rowKeys_apply m c t p) (fun q => colKeys_apply m c t q)]
  unfold tileSum
  rw [dif_pos hN]
  rfl

/-- The accumulator's one cell after point `n`: the sum of the first `n + 1` tiles. -/
theorem acc_cell : ∀ (n : ℕ) (hn : n < cfg0.N), accAt (F := Ideal) m c n hn (ix2 0 0) = ∑ t ∈ Finset.range (n + 1), tileSum m c t
  | 0, hn => by
    refine (congrFun (accAt_first m c ⟨0, hn⟩ rfl) (ix2 0 0)).trans ?_
    rw [step_point m c ⟨0, hn⟩, zero_block, zero_add, Finset.sum_range_one]
  | n + 1, hn => by
    refine (congrFun (accAt_later m c ⟨n + 1, hn⟩ (Nat.succ_ne_zero n)) (ix2 0 0)).trans ?_
    rw [step_point m c ⟨n + 1, hn⟩, Finset.sum_range_succ _ (n + 1)]
    exact congrArg (· + tileSum m c (n + 1)) (acc_cell n (Nat.lt_of_succ_lt hn))

theorem last_lt : 255 < cfg0.N := lt_of_lt_of_eq (by decide : 255 < 256) N_0.symm

/-- After the last point the accumulator holds the specification's total. -/
theorem acc_last : accAt (F := Ideal) m c 255 last_lt (ix2 0 0) = total (rowsIn m c) (keysIn m c) := by
  rw [acc_cell m c 255 last_lt, Cert.TileSum.sum_range_eq_sum_fin (tileSum m c) 256]
  unfold total
  rw [Cert.TileSum.sum_tiles]
  exact Finset.sum_congr rfl fun t _ => by unfold tileSum; rw [dif_pos t.isLt]

/-- The accumulator has one cell. -/
theorem cell_coord (x : S1x1.Idx) : ∀ d : Fin 2, (x d).val = 0
  | ⟨0, _⟩ => Nat.lt_one_iff.mp (x ⟨0, _⟩).isLt
  | ⟨1, _⟩ => Nat.lt_one_iff.mp (x ⟨1, _⟩).isLt

instance : Subsingleton S1x1.Idx :=
  ⟨fun a b => funext fun d => Fin.ext ((cell_coord a d).trans (cell_coord b d).symm)⟩

/-- The 1 x 1 result after the run is the accumulator after the last point: the pipeline writes its block back once,
    after point 255, and that block is the whole array. -/
theorem result_array : (dats m 0 c).arrAt 4 cfg0.N = (accAt (F := Ideal) m c 255 last_lt : S1x1.Idx → EReal) := by
  refine (dats m 0 c).arrAt_eq_of_cover 4 _ (fun t hf => ?_) (fun i => ⟨⟨255, last_lt⟩, (flush0_4 _).mpr rfl, ?_⟩)
  · have ht : t = ⟨255, last_lt⟩ := Fin.ext (by
      show t.val = 255
      have h1 := (flush0_4 t).mp hf
      have h2 : t.val < 256 := lt_of_lt_of_eq t.isLt N_0
      omega)
    subst ht
    funext y
    show accAt m c 255 last_lt _ = accAt m c 255 last_lt _
    exact congrArg _ (@Subsingleton.elim S1x1.Idx _ _ _)
  · show i ∈ ((View.whole main_v3).slice (win0_4.rect ⟨255, last_lt⟩)).set
    rw [View.set_slice_whole, Rect.mem_set_unit]
    intro a
    have h0 : (i a).val = 0 := cell_coord i a
    rw [h0]
    match a with
    | ⟨0, _⟩ => exact ⟨Nat.le_refl 0, Nat.zero_lt_one⟩
    | ⟨1, _⟩ => exact ⟨Nat.le_refl 0, Nat.zero_lt_one⟩

/-- The scalar the program returns: the lines after the region reshape the result cell and divide by the number of
    pairs, which is `mean` of the total. -/
theorem Wfin_result : (Wfin m c main_v5 : S_.Idx → EReal) = mean (total (rowsIn m c) (keysIn m c)) := by
  have e : (Wfin m c main_v5 : S_.Idx → EReal)
      = Host.divf (F := Ideal) (shapeCast S_ (Wexit m c (Proc.devRef .tc main_v3) : S1x1.Idx → EReal) shapeCasts_S1x1_S_)
          (constant (F := Ideal) S_ .f32 0x4BFFF800#32) := by
    show StableHlo.after hostOps1 (Wexit m c) (Proc.devRef .tc main_v5) = _
    after_results
    rfl
  rw [e, Wexit_result, result_array]
  unfold mean
  refine congrArg (fun T => Host.divf (F := Ideal) T (constant (F := Ideal) S_ .f32 0x4BFFF800#32)) ?_
  funext j
  refine (shapeCast_apply (s := S1x1) (t := S_) _ shapeCasts_S1x1_S_ j (ix2 0 0) ?_).trans (acc_last m c)
  have h1 : (S1x1.rowMajor (ix2 0 0)).val < 1 := (S1x1.rowMajor (ix2 0 0)).isLt
  have h2 : (S_.rowMajor j).val < 1 := (S_.rowMajor j).isLt
  omega

/-- The run, with the result named: every weakly fair execution ends with the mean pair loss of the launch arrays in the
    result and the arguments unchanged. -/
theorem run_mean : θ_run (defs (F := Ideal)) (onTc (τ := τ) (main (F := Ideal))) ⟨m, fun _ => 0, ρ⟩ (fun r => ∀ c : Dev nD,
      r.2.mem ((c.tc : Thread nD τ).loc main_v5) = mean (total (rowsIn m c) (keysIn m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun _ h c =>
    ⟨(h c).1.trans (Wfin_result m c),
     (h c).2.1.trans (Wfin_arg m c main_arg0 (by decide) (by decide) (by decide)),
     (h c).2.2.trans (Wfin_arg m c main_arg1 (by decide) (by decide) (by decide))⟩) (run_main m ρ)

end Cert.KernelIdeal.Acc

end
-- ==== Proof.Ref.Total.lean ====
/-
  The reference's total: what its run leaves in the buffer of the full sum, read one operation at a time.
-/
import proofs.«120967_j51591147159598_1_alg».proof.Proof.Gen.ReferenceIdeal.Read
import proofs.«120967_j51591147159598_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- Signed comparison of two small index words is the comparison of the naturals. -/
theorem sle_ofNat_small (a b : Nat) (ha : a < 8192) (hb : b < 8192) :
    (BitVec.ofNat 32 b).sle (BitVec.ofNat 32 a) = decide (b ≤ a) := by
  have h1 : (BitVec.ofNat 32 a).toInt = (a : Int) := by
    rw [BitVec.toInt_eq_toNat_of_lt (by rw [BitVec.toNat_ofNat]; omega), BitVec.toNat_ofNat]; omega
  have h2 : (BitVec.ofNat 32 b).toInt = (b : Int) := by
    rw [BitVec.toInt_eq_toNat_of_lt (by rw [BitVec.toNat_ofNat]; omega), BitVec.toNat_ofNat]; omega
  rw [BitVec.sle_eq_decide, h1, h2]
  simp

/-- The contraction reads row `i` on the left and row `j` on the right, both at the contracted coordinate. -/
theorem lidx_at (i j : Fin 8192) (k : Fin 256) : Read.lidx_main_v0 (ix2 i j) k = ix2 i k := by
  funext a; match a with | ⟨0, _⟩ => rfl | ⟨1, _⟩ => rfl
theorem ridx_at (i j : Fin 8192) (k : Fin 256) : Read.ridx_main_v0 (ix2 i j) k = ix2 j k := by
  funext a; match a with | ⟨0, _⟩ => rfl | ⟨1, _⟩ => rfl

theorem dist_at (X : (⟨S8192x256, .f32⟩ : BufTy).Contents (Elt Ideal)) (i j : Fin 8192) :
    Read.val_main_v2 (F := Ideal) X (ix2 i j) = Cert.PairLoss.dist (Cert.PairLoss.rowsOf X) i j := by
  rw [Read.val_main_v2_apply, Read.val_main_v1_apply, Read.val_main_cst_apply, Read.val_main_v0_apply,
    Ideal.subf_def, Ideal.ofBits_def]
  unfold Cert.PairLoss.dist Cert.PairLoss.rowsOf
  refine congrArg _ (Finset.sum_congr rfl fun k _ => ?_)
  rw [lidx_at, ridx_at]

/-- The hinge at margin two. -/
theorem hinge_at (X : (⟨S8192x256, .f32⟩ : BufTy).Contents (Elt Ideal)) (i j : Fin 8192) :
    Read.val_main_v11 (F := Ideal) X (ix2 i j)
      = max (Cert.PairLoss.cTwo - Cert.PairLoss.dist (Cert.PairLoss.rowsOf X) i j) Cert.PairLoss.cZero := by
  rw [Read.val_main_v11_apply, Read.val_main_v10_apply, Read.val_main_v9_apply, Read.val_main_cst_0_apply,
    Read.val_main_call0_v0_apply, Read.val_main_call0_cst_apply, dist_at,
    Ideal.maximumf_def, Ideal.subf_def, Ideal.ofBits_def, Ideal.ofBits_def]

/-- The key comparison at a pair of rows. -/
theorem keyeq_at (Kk : (⟨S8192, .i32⟩ : BufTy).Contents (Elt Ideal)) (i j : Fin 8192) :
    Read.val_main_v7 (F := Ideal) Kk (ix2 i j)
      = BitVec.ofBool (Cert.PairLoss.keysOf Kk i == Cert.PairLoss.keysOf Kk j) := by
  rw [Read.val_main_v7_apply, Read.val_main_v5_apply, Read.val_main_v6_apply, Read.val_main_v3_apply, Read.val_main_v4_apply]
  have e1 : Read.idx_main_v3 (Read.idx_main_v5 (ix2 i j)) = ix1 i := by
    funext a; match a with | ⟨0, _⟩ => rfl
  have e2 : Read.idx_main_v4 (Read.idx_main_v6 (ix2 i j)) = ix1 j := by
    funext a; match a with | ⟨0, _⟩ => rfl
  rw [e1, e2]
  rfl

/-- The strict upper triangle: the mask bit at `(i, j)` is set exactly when `i < j`. -/
theorem upper_at (i j : Fin 8192) :
    Read.val_main_v15 (F := Ideal) (ix2 i j) = BitVec.ofBool (decide (i.val < j.val)) := by
  rw [Read.val_main_v15_apply, Read.val_main_call2_v4_apply, Read.val_main_call2_v2_apply, Read.val_main_call2_v0_apply,
    Read.val_main_call2_v1_apply, Read.val_main_call2_c_apply, Read.val_main_call2_v3_apply, Read.val_main_call2_v5_apply,
    Read.val_main_call2_c_0_apply, Read.val_main_v14_apply, Read.val_main_c_apply]
  show Scalar.select (BitVec.ofBool ((BitVec.ofNat 32 j.val).sle (BitVec.ofNat 32 i.val + 0#32))) 0#1 1#1 = _
  rw [BitVec.add_zero, sle_ofNat_small i.val j.val i.isLt j.isLt]
  by_cases h : i.val < j.val
  · rw [decide_eq_false (by omega), decide_eq_true h]; rfl
  · rw [decide_eq_true (by omega), decide_eq_false h]; rfl

/-- One entry of the masked charge matrix. -/
theorem entry_at (X : (⟨S8192x256, .f32⟩ : BufTy).Contents (Elt Ideal)) (Kk : (⟨S8192, .i32⟩ : BufTy).Contents (Elt Ideal))
    (i j : Fin 8192) :
    Read.val_main_v16 (F := Ideal) X Kk (ix2 i j)
      = Cert.PairLoss.masked (Cert.PairLoss.rowsOf X) (Cert.PairLoss.keysOf Kk) i j := by
  rw [Read.val_main_v16_apply, upper_at, Read.val_main_v13_apply, keyeq_at, Read.val_main_v8_apply, Read.val_main_v12_apply,
    dist_at, hinge_at, Read.val_main_call3_v1_apply, Read.val_main_call3_v0_apply, Read.val_main_cst_1_apply]
  simp only [Ideal.mulf_def, Ideal.ofBits_def]
  unfold Cert.PairLoss.masked Cert.PairLoss.pairLoss
  by_cases h : i.val < j.val
  · rw [if_pos h, decide_eq_true h]
    refine (select_one _ _).trans ?_
    by_cases hk : Cert.PairLoss.keysOf Kk i = Cert.PairLoss.keysOf Kk j
    · rw [if_pos hk, beq_iff_eq.mpr hk]; exact select_one _ _
    · rw [if_neg hk, beq_eq_false_iff_ne.mpr hk]; exact select_zero _ _
  · rw [if_neg h, decide_eq_false h]; exact select_zero _ _

/-- The reference's full sum is the total charge over all pairs. -/
theorem total_eq (X : (⟨S8192x256, .f32⟩ : BufTy).Contents (Elt Ideal)) (Kk : (⟨S8192, .i32⟩ : BufTy).Contents (Elt Ideal)) :
    Read.val_main_v17 (F := Ideal) X Kk = fun _ => Cert.PairLoss.total (Cert.PairLoss.rowsOf X) (Cert.PairLoss.keysOf Kk) := by
  funext s
  rw [Read.val_main_v17_apply, Read.val_main_cst_2_apply, Ideal.ofBits_def, Ideal.ofBits_zero_f32, zero_add, sum_idx2]
  unfold Cert.PairLoss.total
  exact Finset.sum_congr rfl fun i _ => Finset.sum_congr rfl fun j _ => entry_at X Kk i j

/-- The reference's result is the mean of the total charge. -/
theorem result_eq (X : (⟨S8192x256, .f32⟩ : BufTy).Contents (Elt Ideal)) (Kk : (⟨S8192, .i32⟩ : BufTy).Contents (Elt Ideal)) :
    Read.val_main_v18 (F := Ideal) X Kk = Cert.PairLoss.mean (Cert.PairLoss.total (Cert.PairLoss.rowsOf X) (Cert.PairLoss.keysOf Kk)) := by
  unfold Read.val_main_v18 Cert.PairLoss.mean
  rw [total_eq]
  rfl

/-- Every run of the reference ends with the mean of the total charge of its arguments in the result buffer, the arguments
    unchanged. -/
theorem run_mean (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v18) = Cert.PairLoss.mean (Cert.PairLoss.total (Cert.PairLoss.rowsOf (m ((c.tc : Thread nD τ).loc main_arg0))) (Cert.PairLoss.keysOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono
    (fun _ h c => ⟨(h c).1.trans ((Read.val_main_v18_eq _ _).trans (result_eq _ _)), (h c).2⟩)
    (Value.run (F := Ideal) m ρ)

end Cert.ReferenceIdeal.RefValue

end
-- ==== Proof.lean ====
/-
  The certificate of the pair-loss kernel against its jnp reference.

  Both programs take B = 8192 embeddings of dimension 256 and an integer key per embedding and return the mean, over the
  B(B-1)/2 pairs i < j, of a contrastive loss of the pair: with d(i,j) one minus the inner product of the two rows, a pair
  with equal keys is charged d², a pair with different keys max(2 - d, 0)². The reference forms the whole B x B matrix of
  charges, masks it to the strict upper triangle and sums it; the kernel walks a 16 x 16 grid of 512 x 512 tiles, sums each
  tile's masked charges and adds the tile totals into one cell, then the host divides by the number of pairs.

  Over the extended reals the two totals are one number: a matrix product into a zero accumulator and the host's
  contraction are the same sum over the 256 coordinates, rounding the embeddings to bf16 is the identity, and the sum over
  all pairs regroups by tiles because addition there is commutative and associative — no finiteness is used, so the
  precondition is never opened. Both programs then apply the same division to that total.

  The three frame claims: the reference's is its run with the result dropped; each kernel program's is the run of its one
  pipeline region between two stretches of host lines, the row window and the column window sharing the array of
  embeddings. The idealization rewrote nothing, so there is nothing to preserve.
-/
import proofs.«120967_j51591147159598_1_alg».proof.Defs
import proofs.«120967_j51591147159598_1_alg».proof.Proof.Gen.Kernel
import proofs.«120967_j51591147159598_1_alg».proof.Proof.Gen.KernelIdeal
import proofs.«120967_j51591147159598_1_alg».proof.Proof.Gen.ReferenceIdeal
import proofs.«120967_j51591147159598_1_alg».proof.Proof.Gen.Pre_finite_inputs
import proofs.«120967_j51591147159598_1_alg».proof.Proof.K.Frame
import proofs.«120967_j51591147159598_1_alg».proof.Proof.KI.Value
import proofs.«120967_j51591147159598_1_alg».proof.Proof.Ref.Total
import Idealize.ShloMosaic.Adequacy
import Idealize.ShloMosaic.Init

noncomputable section

namespace Cert.Proof

open Idealize.ShloMosaic Idealize.ShloMosaic.TcCoe Idealize.SL.Sem Cert.PairLoss

/-- The word-level kernel runs and leaves its arguments alone. -/
theorem frame_kernel : Cert.frame_Kernel := fun m ρ _ => Cert.Kernel.Acc.frame m ρ

/-- So does its idealization. -/
theorem frame_kernelIdeal : Cert.frame_KernelIdeal := fun m ρ _ => Cert.KernelIdeal.Acc.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefValue.run_mean m ρ)

/-- Nothing was rewritten. -/
theorem preserves : Cert.preserves_Kernel_KernelIdeal := trivial

/-- From memories that agree on the two arguments both programs end with the mean pair loss of those arguments. -/
theorem algebraic : Cert.algebraic_KernelIdeal_ReferenceIdeal := by
  intro m ρ m' ρ' _ hagree
  refine ⟨fun c => mean (total (rowsOf (m ((c.tc : Thread Cert.KernelIdeal.nD Cert.KernelIdeal.τ).loc Cert.KernelIdeal.main_arg0)))
      (keysOf (m ((c.tc : Thread Cert.KernelIdeal.nD Cert.KernelIdeal.τ).loc Cert.KernelIdeal.main_arg1)))),
    Cert.KernelIdeal.Acc.run_mean m ρ, ?_⟩
  refine (θ_run Cert.ReferenceIdeal.defs _ _).mono (fun _ h c => ⟨(h c).1.trans ?_, (h c).2⟩)
    (Cert.ReferenceIdeal.RefValue.run_mean m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
